-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x4 : Shape := ⟨2, ![4000000, 4]⟩
abbrev S4000000x3 : Shape := ⟨2, ![4000000, 3]⟩
abbrev S_ : Shape := ⟨0, ![]⟩
abbrev S4000000 : Shape := ⟨1, ![4000000]⟩

class Facts : Prop where
  bcast_S_S4000000x4 : S_.BroadcastsInDim S4000000x4 (![] : Fin 0 → Fin S4000000x4.rank)
  reducesTo_S4000000x4_S_d0_1 : S4000000x4.ReducesTo [0, 1] S_
  h_S_ : 0 < S_.numel
  bcast_S_S4000000x3 : S_.BroadcastsInDim S4000000x3 (![] : Fin 0 → Fin S4000000x3.rank)
  reducesTo_S4000000x3_S_d0_1 : S4000000x3.ReducesTo [0, 1] S_
  reducesTo_S4000000x4_S4000000_d1 : S4000000x4.ReducesTo [1] S4000000
  bcast_S_S4000000 : S_.BroadcastsInDim S4000000 (![] : Fin 0 → Fin S4000000.rank)
  reducesTo_S4000000_S_d0 : S4000000.ReducesTo [0] S_

variable [Facts]

def fn {F : FTy → Type} [FloatOps F] (main_arg0 : FVec F S4000000x4 .f32) (main_arg1 : FVec F S4000000x3 .f32) : IVec S_ 1 :=
  let main_v0 : FVec F S4000000x4 .f32 := Host.absf main_arg0
  let main_cst : FVec F S_ .f32 := constant S_ .f32 0x7F800000#32
  let main_v1 : FVec F S4000000x4 .f32 := broadcastInDim S4000000x4 ![] bcast_S_S4000000x4 main_cst
  let main_v2 : IVec S4000000x4 1 := cmpf .olt main_v0 main_v1
  let main_c : IVec S_ 1 := constantI S_ 1 1#1
  let main_v3 : IVec S_ 1 := (fun x v => Host.reduce IntOp.andi x v reducesTo_S4000000x4_S_d0_1 h_S_) main_v2 main_c
  let main_v4 : FVec F S4000000x3 .f32 := Host.absf main_arg1
  let main_cst_0 : FVec F S_ .f32 := constant S_ .f32 0x7F800000#32
  let main_v5 : FVec F S4000000x3 .f32 := broadcastInDim S4000000x3 ![] bcast_S_S4000000x3 main_cst_0
  let main_v6 : IVec S4000000x3 1 := cmpf .olt main_v4 main_v5
  let main_c_1 : IVec S_ 1 := constantI S_ 1 1#1
  let main_v7 : IVec S_ 1 := (fun x v => Host.reduce IntOp.andi x v reducesTo_S4000000x3_S_d0_1 h_S_) main_v6 main_c_1
  let main_v8 : IVec S_ 1 := andi main_v3 main_v7
  let main_v9 : FVec F S4000000x4 .f32 := mulf main_arg0 main_arg0
  let main_cst_2 : FVec F S_ .f32 := constant S_ .f32 0x00000000#32
  let main_v10 : FVec F S4000000 .f32 := (fun x v => Host.reduceAdd x v reducesTo_S4000000x4_S4000000_d1 h_S_) main_v9 main_cst_2
  let main_cst_3 : FVec F S_ .f32 := constant S_ .f32 0x00000000#32
  let main_v11 : FVec F S4000000 .f32 := broadcastInDim S4000000 ![] bcast_S_S4000000 main_cst_3
  let main_v12 : IVec S4000000 1 := cmpf .ogt main_v10 main_v11
  let main_c_4 : IVec S_ 1 := constantI S_ 1 1#1
  let main_v13 : IVec S_ 1 := (fun x v => Host.reduce IntOp.andi x v reducesTo_S4000000_S_d0 h_S_) main_v12 main_c_4
  let main_v14 : IVec S_ 1 := andi main_v8 main_v13
  main_v14
-- ==== Kernel.lean ====
abbrev S4000000x4 : Shape := ⟨2, ![4000000, 4]⟩
abbrev S4000000x3 : Shape := ⟨2, ![4000000, 3]⟩
abbrev S_ : Shape := ⟨0, ![]⟩
abbrev S4001792x4 : Shape := ⟨2, ![4001792, 4]⟩
abbrev S4001792x3 : Shape := ⟨2, ![4001792, 3]⟩
abbrev S4001792x9 : Shape := ⟨2, ![4001792, 9]⟩
abbrev S2048x4 : Shape := ⟨2, ![2048, 4]⟩
abbrev S2048x3 : Shape := ⟨2, ![2048, 3]⟩
abbrev S2048x9 : Shape := ⟨2, ![2048, 9]⟩
abbrev S2048 : Shape := ⟨1, ![2048]⟩
abbrev S2048x1 : Shape := ⟨2, ![2048, 1]⟩
abbrev S4000000x9 : Shape := ⟨2, ![4000000, 9]⟩
abbrev S4000000x3x3 : Shape := ⟨3, ![4000000, 3, 3]⟩

abbrev nBuf : Space → Nat
  | .hbm => 11
  | .vmem => 6
  | .smem => 0
  | _ => 0

abbrev bufTy : (tb : Table) → Fin (tcTables nBuf tb) → BufTy
  | .hbm, ⟨0, _⟩ => ⟨S4000000x4, .f32⟩
  | .hbm, ⟨1, _⟩ => ⟨S4000000x3, .f32⟩
  | .hbm, ⟨2, _⟩ => ⟨S_, .i32⟩
  | .hbm, ⟨3, _⟩ => ⟨S_, .f32⟩
  | .hbm, ⟨4, _⟩ => ⟨S4001792x4, .f32⟩
  | .hbm, ⟨5, _⟩ => ⟨S_, .i32⟩
  | .hbm, ⟨6, _⟩ => ⟨S_, .f32⟩
  | .hbm, ⟨7, _⟩ => ⟨S4001792x3, .f32⟩
  | .hbm, ⟨8, _⟩ => ⟨S4001792x9, .f32⟩
  | .hbm, ⟨9, _⟩ => ⟨S4000000x9, .f32⟩
  | .hbm, ⟨10, _⟩ => ⟨S4000000x3x3, .f32⟩
  | .local _ .vmem, ⟨0, _⟩ => ⟨S2048x4, .f32⟩
  | .local _ .vmem, ⟨1, _⟩ => ⟨S2048x4, .f32⟩
  | .local _ .vmem, ⟨2, _⟩ => ⟨S2048x3, .f32⟩
  | .local _ .vmem, ⟨3, _⟩ => ⟨S2048x3, .f32⟩
  | .local _ .vmem, ⟨4, _⟩ => ⟨S2048x9, .f32⟩
  | .local _ .vmem, ⟨5, _⟩ => ⟨S2048x9, .f32⟩
  | _, _ => ⟨S4000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![1954], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S4000000x4_S4001792x4_017920_000 : S4000000x4.Pads (![0, 0] : Fin 2 → Nat) ![1792, 0] ![0, 0] S4001792x4
  h_S_ : 0 < S_.numel
  pads_S4000000x3_S4001792x3_017920_000 : S4000000x3.Pads (![0, 0] : Fin 2 → Nat) ![1792, 0] ![0, 0] S4001792x3
  inb_S2048x4_S2048x4_0_0 : ∀ a, (![0, 0] : Fin 2 → Nat) a + S2048x4.size a ≤ S2048x4.size a
  h_S2048x4 : 0 < S2048x4.numel
  shapeCasts_S2048x4_S2048x4 : S2048x4.ShapeCasts S2048x4
  reduces_S2048x4_S2048 : S2048x4.Reduces [1] S2048
  shapeCasts_S2048_S2048x1 : S2048.ShapeCasts S2048x1
  broadcasts_S2048x1_S2048x4 : S2048x1.Broadcasts S2048x4
  slices_S2048x4_o0_0_S2048x1 : S2048x4.Slices ![0, 0] S2048x1
  slices_S2048x4_o0_1_S2048x1 : S2048x4.Slices ![0, 1] S2048x1
  slices_S2048x4_o0_2_S2048x1 : S2048x4.Slices ![0, 2] S2048x1
  slices_S2048x4_o0_3_S2048x1 : S2048x4.Slices ![0, 3] S2048x1
  inb_S2048x3_S2048x3_0_0 : ∀ a, (![0, 0] : Fin 2 → Nat) a + S2048x3.size a ≤ S2048x3.size a
  h_S2048x3 : 0 < S2048x3.numel
  shapeCasts_S2048x3_S2048x3 : S2048x3.ShapeCasts S2048x3
  slices_S2048x3_o0_0_S2048x1 : S2048x3.Slices ![0, 0] S2048x1
  slices_S2048x3_o0_1_S2048x1 : S2048x3.Slices ![0, 1] S2048x1
  slices_S2048x3_o0_2_S2048x1 : S2048x3.Slices ![0, 2] S2048x1
  concatenates_S2048x1_S2048x1_S2048x1_S2048x1_S2048x1_S2048x1_S2048x1_S2048x1_S2048x1_S2048x9_d1 : Shape.Concatenates [S2048x1, S2048x1, S2048x1, S2048x1, S2048x1, S2048x1, S2048x1, S2048x1, S2048x1] S2048x9 1
  inb_S2048x9_S2048x9_0_0 : ∀ a, (![0, 0] : Fin 2 → Nat) a + S2048x9.size a ≤ S2048x9.size a
  h_S2048x9 : 0 < S2048x9.numel
  slices_S4001792x9_S4000000x9_0_0 : S4001792x9.Slices ![0, 0] S4000000x9
  shapeCasts_S4000000x9_S4000000x3x3 : S4000000x9.ShapeCasts S4000000x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4.size a ≤ S4001792x4.size a
  hwx0_0 : ∀ i : grid0.Coords, EltTy.bits .f32 = 32 ∨ (Rect.block (s := S4001792x4) S2048x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x3.size a ≤ S4001792x3.size a
  hwx0_1 : ∀ i : grid0.Coords, EltTy.bits .f32 = 32 ∨ (Rect.block (s := S4001792x3) S2048x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x9.size a ≤ S4001792x9.size a
  hwx0_2 : ∀ i : grid0.Coords, EltTy.bits .f32 = 32 ∨ (Rect.block (s := S4001792x9) S2048x9.size (cc0_transform_2 i) (hinb0_2 i)).WholeWords (EltTy.packing .f32)

variable [Facts₀]

abbrev win0_0 : Pipeline.Window sig grid0 :=
  Pipeline.Window.ofSpec (Memref.whole main_v0) S2048x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x9.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x4 : Shape := ⟨2, ![4000000, 4]⟩
abbrev S4000000x3 : Shape := ⟨2, ![4000000, 3]⟩
abbrev S_ : Shape := ⟨0, ![]⟩
abbrev S4000000 : Shape := ⟨1, ![4000000]⟩
abbrev S4000000x1 : Shape := ⟨2, ![4000000, 1]⟩
abbrev S4000000x9 : Shape := ⟨2, ![4000000, 9]⟩
abbrev S4000000x3x3 : Shape := ⟨3, ![4000000, 3, 3]⟩
abbrev S4000000x1x3 : Shape := ⟨3, ![4000000, 1, 3]⟩

abbrev nBuf : Space → Nat
  | .hbm => 99
  | .vmem => 0
  | .smem => 0
  | _ => 0

abbrev bufTy : (tb : Table) → Fin (tcTables nBuf tb) → BufTy
  | .hbm, ⟨0, _⟩ => ⟨S4000000x4, .f32⟩
  | .hbm, ⟨1, _⟩ => ⟨S4000000x3, .f32⟩
  | .hbm, ⟨2, _⟩ => ⟨S4000000x4, .f32⟩
  | .hbm, ⟨3, _⟩ => ⟨S_, .f32⟩
  | .hbm, ⟨4, _⟩ => ⟨S4000000, .f32⟩
  | .hbm, ⟨5, _⟩ => ⟨S4000000x1, .f32⟩
  | .hbm, ⟨6, _⟩ => ⟨S4000000x1, .f32⟩
  | .hbm, ⟨7, _⟩ => ⟨S4000000x4, .f32⟩
  | .hbm, ⟨8, _⟩ => ⟨S4000000x4, .f32⟩
  | .hbm, ⟨9, _⟩ => ⟨S4000000x1, .f32⟩
  | .hbm, ⟨10, _⟩ => ⟨S4000000, .f32⟩
  | .hbm, ⟨11, _⟩ => ⟨S4000000x1, .f32⟩
  | .hbm, ⟨12, _⟩ => ⟨S4000000, .f32⟩
  | .hbm, ⟨13, _⟩ => ⟨S4000000x1, .f32⟩
  | .hbm, ⟨14, _⟩ => ⟨S4000000, .f32⟩
  | .hbm, ⟨15, _⟩ => ⟨S4000000x1, .f32⟩
  | .hbm, ⟨16, _⟩ => ⟨S4000000, .f32⟩
  | .hbm, ⟨17, _⟩ => ⟨S4000000, .f32⟩
  | .hbm, ⟨18, _⟩ => ⟨S4000000, .f32⟩
  | .hbm, ⟨19, _⟩ => ⟨S4000000, .f32⟩
  | .hbm, ⟨20, _⟩ => ⟨S_, .f32⟩
  | .hbm, ⟨21, _⟩ => ⟨S4000000, .f32⟩
  | .hbm, ⟨22, _⟩ => ⟨S4000000, .f32⟩
  | .hbm, ⟨23, _⟩ => ⟨S_, .f32⟩
  | .hbm, ⟨24, _⟩ => ⟨S4000000, .f32⟩
  | .hbm, ⟨25, _⟩ => ⟨S4000000, .f32⟩
  | .hbm, ⟨26, _⟩ => ⟨S4000000, .f32⟩
  | .hbm, ⟨27, _⟩ => ⟨S4000000, .f32⟩
  | .hbm, ⟨28, _⟩ => ⟨S4000000, .f32⟩
  | .hbm, ⟨29, _⟩ => ⟨S_, .f32⟩
  | .hbm, ⟨30, _⟩ => ⟨S4000000, .f32⟩
  | .hbm, ⟨31, _⟩ => ⟨S4000000, .f32⟩
  | .hbm, ⟨32, _⟩ => ⟨S4000000, .f32⟩
  | .hbm, ⟨33, _⟩ => ⟨S4000000, .f32⟩
  | .hbm, ⟨34, _⟩ => ⟨S4000000, .f32⟩
  | .hbm, ⟨35, _⟩ => ⟨S_, .f32⟩
  | .hbm, ⟨36, _⟩ => ⟨S4000000, .f32⟩
  | .hbm, ⟨37, _⟩ => ⟨S4000000, .f32⟩
  | .hbm, ⟨38, _⟩ => ⟨S4000000, .f32⟩
  | .hbm, ⟨39, _⟩ => ⟨S4000000, .f32⟩
  | .hbm, ⟨40, _⟩ => ⟨S4000000, .f32⟩
  | .hbm, ⟨41, _⟩ => ⟨S_, .f32⟩
  | .hbm, ⟨42, _⟩ => ⟨S4000000, .f32⟩
  | .hbm, ⟨43, _⟩ => ⟨S4000000, .f32⟩
  | .hbm, ⟨44, _⟩ => ⟨S4000000, .f32⟩
  | .hbm, ⟨45, _⟩ => ⟨S4000000, .f32⟩
  | .hbm, ⟨46, _⟩ => ⟨S4000000, .f32⟩
  | .hbm, ⟨47, _⟩ => ⟨S_, .f32⟩
  | .hbm, ⟨48, _⟩ => ⟨S4000000, .f32⟩
  | .hbm, ⟨49, _⟩ => ⟨S4000000, .f32⟩
  | .hbm, ⟨50, _⟩ => ⟨S_, .f32⟩
  | .hbm, ⟨51, _⟩ => ⟨S4000000, .f32⟩
  | .hbm, ⟨52, _⟩ => ⟨S4000000, .f32⟩
  | .hbm, ⟨53, _⟩ => ⟨S4000000, .f32⟩
  | .hbm, ⟨54, _⟩ => ⟨S4000000, .f32⟩
  | .hbm, ⟨55, _⟩ => ⟨S4000000, .f32⟩
  | .hbm, ⟨56, _⟩ => ⟨S_, .f32⟩
  | .hbm, ⟨57, _⟩ => ⟨S4000000, .f32⟩
  | .hbm, ⟨58, _⟩ => ⟨S4000000, .f32⟩
  | .hbm, ⟨59, _⟩ => ⟨S4000000, .f32⟩
  | .hbm, ⟨60, _⟩ => ⟨S4000000, .f32⟩
  | .hbm, ⟨61, _⟩ => ⟨S4000000, .f32⟩
  | .hbm, ⟨62, _⟩ => ⟨S_, .f32⟩
  | .hbm, ⟨63, _⟩ => ⟨S4000000, .f32⟩
  | .hbm, ⟨64, _⟩ => ⟨S4000000, .f32⟩
  | .hbm, ⟨65, _⟩ => ⟨S4000000, .f32⟩
  | .hbm, ⟨66, _⟩ => ⟨S4000000, .f32⟩
  | .hbm, ⟨67, _⟩ => ⟨S4000000, .f32⟩
  | .hbm, ⟨68, _⟩ => ⟨S_, .f32⟩
  | .hbm, ⟨69, _⟩ => ⟨S4000000, .f32⟩
  | .hbm, ⟨70, _⟩ => ⟨S4000000, .f32⟩
  | .hbm, ⟨71, _⟩ => ⟨S4000000, .f32⟩
  | .hbm, ⟨72, _⟩ => ⟨S4000000, .f32⟩
  | .hbm, ⟨73, _⟩ => ⟨S4000000, .f32⟩
  | .hbm, ⟨74, _⟩ => ⟨S_, .f32⟩
  | .hbm, ⟨75, _⟩ => ⟨S4000000, .f32⟩
  | .hbm, ⟨76, _⟩ => ⟨S4000000, .f32⟩
  | .hbm, ⟨77, _⟩ => ⟨S_, .f32⟩
  | .hbm, ⟨78, _⟩ => ⟨S4000000, .f32⟩
  | .hbm, ⟨79, _⟩ => ⟨S4000000, .f32⟩
  | .hbm, ⟨80, _⟩ => ⟨S4000000x1, .f32⟩
  | .hbm, ⟨81, _⟩ => ⟨S4000000x1, .f32⟩
  | .hbm, ⟨82, _⟩ => ⟨S4000000x1, .f32⟩
  | .hbm, ⟨83, _⟩ => ⟨S4000000x1, .f32⟩
  | .hbm, ⟨84, _⟩ => ⟨S4000000x1, .f32⟩
  | .hbm, ⟨85, _⟩ => ⟨S4000000x1, .f32⟩
  | .hbm, ⟨86, _⟩ => ⟨S4000000x1, .f32⟩
  | .hbm, ⟨87, _⟩ => ⟨S4000000x1, .f32⟩
  | .hbm, ⟨88, _⟩ => ⟨S4000000x1, .f32⟩
  | .hbm, ⟨89, _⟩ => ⟨S4000000x9, .f32⟩
  | .hbm, ⟨90, _⟩ => ⟨S4000000x3x3, .f32⟩
  | .hbm, ⟨91, _⟩ => ⟨S4000000x3, .f32⟩
  | .hbm, ⟨92, _⟩ => ⟨S_, .f32⟩
  | .hbm, ⟨93, _⟩ => ⟨S4000000x3, .f32⟩
  | .hbm, ⟨94, _⟩ => ⟨S4000000x3, .f32⟩
  | .hbm, ⟨95, _⟩ => ⟨S4000000x1x3, .f32⟩
  | .hbm, ⟨96, _⟩ => ⟨S4000000x3x3, .f32⟩
  | .hbm, ⟨97, _⟩ => ⟨S4000000x3x3, .f32⟩
  | .hbm, ⟨98, _⟩ => ⟨S4000000x3x3, .f32⟩
  | _, _ => ⟨S4000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_8 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩
abbrev main_v59 : Ref sig .tc := ⟨.hbm, 76, rfl⟩
abbrev main_cst_10 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_11 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩

abbrev nD : Nat := 1
abbrev τ : Topo := Topo.v7x

variable {F : FTy → Type} [FloatOps F]

class Facts₀ : Prop where
  reducesTo_S4000000x4_S4000000_d1 : S4000000x4.ReducesTo [1] S4000000
  h_S_ : 0 < S_.numel
  bcast_S4000000_S4000000x1_0 : S4000000.BroadcastsInDim S4000000x1 (![0] : Fin 1 → Fin S4000000x1.rank)
  bcast_S4000000x1_S4000000x4_0_1 : S4000000x1.BroadcastsInDim S4000000x4 (![0, 1] : Fin 2 → Fin S4000000x4.rank)
  slices_S4000000x4_S4000000x1_0_0 : S4000000x4.Slices ![0, 0] S4000000x1
  shapeCasts_S4000000x1_S4000000 : S4000000x1.ShapeCasts S4000000
  slices_S4000000x4_S4000000x1_0_1 : S4000000x4.Slices ![0, 1] S4000000x1
  slices_S4000000x4_S4000000x1_0_2 : S4000000x4.Slices ![0, 2] S4000000x1
  slices_S4000000x4_S4000000x1_0_3 : S4000000x4.Slices ![0, 3] S4000000x1
  bcast_S_S4000000 : S_.BroadcastsInDim S4000000 (![] : Fin 0 → Fin S4000000.rank)
  concatenates_S4000000x1_S4000000x1_S4000000x1_S4000000x1_S4000000x1_S4000000x1_S4000000x1_S4000000x1_S4000000x1_S4000000x9_d1 : Shape.Concatenates [S4000000x1, S4000000x1, S4000000x1, S4000000x1, S4000000x1, S4000000x1, S4000000x1, S4000000x1, S4000000x1] S4000000x9 1
  shapeCasts_S4000000x9_S4000000x3x3 : S4000000x9.ShapeCasts S4000000x3x3
  bcast_S_S4000000x3 : S_.BroadcastsInDim S4000000x3 (![] : Fin 0 → Fin S4000000x3.rank)
  bcast_S4000000x3_S4000000x1x3_0_2 : S4000000x3.BroadcastsInDim S4000000x1x3 (![0, 2] : Fin 2 → Fin S4000000x1x3.rank)
  bcast_S4000000x1x3_S4000000x3x3_0_1_2 : S4000000x1x3.BroadcastsInDim S4000000x3x3 (![0, 1, 2] : Fin 3 → Fin S4000000x3x3.rank)
  dot_S4000000x3x3_S4000000x3x3_S4000000x3x3_2_2_1_1_0_0_wf : DotDims.WF S4000000x3x3 S4000000x3x3 S4000000x3x3 [2] [2] [1] [1] [0] [0]

variable [Facts₀]

def dot_S4000000x3x3_S4000000x3x3_S4000000x3x3_2_2_1_1_0_0 : DotDims S4000000x3x3 S4000000x3x3 S4000000x3x3 where
  lhsContracting := [2]
  rhsContracting := [2]
  lhsNonContracting := [1]
  rhsNonContracting := [1]
  lhsBatch := [0]
  rhsBatch := [0]
  wf := dot_S4000000x3x3_S4000000x3x3_S4000000x3x3_2_2_1_1_0_0_wf

class Facts : Prop extends Facts₀ where

variable [Facts]
-- ==== Proof.CovSpec.lean ====
/-
  The function both programs compute, one row at a time.

  A row of the first argument is a quadruple (w, x, y, z), a row of the second a triple of scales. Both programs
  normalise the quadruple, form the rotation matrix of the unit quadruple, scale its columns by |scale| + ε and
  multiply the scaled rotation by its own transpose. They differ in two places only: the kernel normalises by
  the product with the reciprocal root of the squared length while the reference divides by the root, and the
  kernel writes the symmetric product's nine entries as explicit three-term sums (the lower triangle copied from
  the upper) while the reference contracts over the column index. This module states the shared pieces and the
  two spellings; the float literals stay as the words both programs print.
-/
import Idealize.ShloMosaic.PureOps.Ideal
import Idealize.ShloMosaic.PureOps.Ideal.Laws
import Idealize.ShloMosaic.Lib.ValueIdx

noncomputable section

open scoped BigOperators

namespace Cert.Cov

open Idealize.ShloMosaic Idealize.ShloMosaic.ValueIdx

/-- Row `r` of a rank-2 array, as a function of the column. -/
def row {n0 n1 : Nat} (x : (⟨2, ![n0, n1]⟩ : Shape).Idx → EReal) (r : Fin n0) : Fin n1 → EReal :=
  fun c => x (ix2 r c)

/-- The squared length of a quadruple. -/
def sq (q : Fin 4 → EReal) : EReal := ∑ k : Fin 4, q k * q k

/-- The unit quadruple as the kernel forms it: each entry times the reciprocal root of the squared length. -/
def unitK (q : Fin 4 → EReal) : Fin 4 → EReal := fun k => q k * Ideal.rsqrt (sq q)

/-- The unit quadruple as the reference forms it: each entry over the root of the squared length. -/
def unitR (q : Fin 4 → EReal) : Fin 4 → EReal := fun k => Ideal.div (q k) (Ideal.sqrt (sq q))

/-- The rotation matrix of a quadruple (w, x, y, z) = (u 0, u 1, u 2, u 3), entry (i, j); the words are 1.0 and 2.0. -/
def rot (u : Fin 4 → EReal) : Fin 3 → Fin 3 → EReal
  | ⟨0, _⟩, ⟨0, _⟩ => Ideal.ofBits .f32 0x3F800000#32 - Ideal.ofBits .f32 0x40000000#32 * (u 2 * u 2 + u 3 * u 3)
  | ⟨0, _⟩, ⟨1, _⟩ => Ideal.ofBits .f32 0x40000000#32 * (u 1 * u 2 - u 0 * u 3)
  | ⟨0, _⟩, ⟨2, _⟩ => Ideal.ofBits .f32 0x40000000#32 * (u 1 * u 3 + u 0 * u 2)
  | ⟨1, _⟩, ⟨0, _⟩ => Ideal.ofBits .f32 0x40000000#32 * (u 1 * u 2 + u 0 * u 3)
  | ⟨1, _⟩, ⟨1, _⟩ => Ideal.ofBits .f32 0x3F800000#32 - Ideal.ofBits .f32 0x40000000#32 * (u 1 * u 1 + u 3 * u 3)
  | ⟨1, _⟩, ⟨2, _⟩ => Ideal.ofBits .f32 0x40000000#32 * (u 2 * u 3 - u 0 * u 1)
  | ⟨2, _⟩, ⟨0, _⟩ => Ideal.ofBits .f32 0x40000000#32 * (u 1 * u 3 - u 0 * u 2)
  | ⟨2, _⟩, ⟨1, _⟩ => Ideal.ofBits .f32 0x40000000#32 * (u 2 * u 3 + u 0 * u 1)
  | ⟨2, _⟩, ⟨2, _⟩ => Ideal.ofBits .f32 0x3F800000#32 - Ideal.ofBits .f32 0x40000000#32 * (u 1 * u 1 + u 2 * u 2)
  | ⟨0, _⟩, ⟨_ + 3, h⟩ => absurd h (by omega)
  | ⟨1, _⟩, ⟨_ + 3, h⟩ => absurd h (by omega)
  | ⟨2, _⟩, ⟨_ + 3, h⟩ => absurd h (by omega)
  | ⟨_ + 3, h⟩, _ => absurd h (by omega)

/-- A scale entry as both programs use it: its absolute value plus the word of 1e-8. -/
def scl (s : Fin 3 → EReal) : Fin 3 → EReal := fun j => max (s j) (-(s j)) + Ideal.ofBits .f32 0x322BCC77#32

/-- The scaled rotation: column `j` of the rotation times scale `j`. -/
def rs (u : Fin 4 → EReal) (s : Fin 3 → EReal) (i j : Fin 3) : EReal := rot u i j * scl s j

/-- Rows `i` and `k` of the scaled rotation multiplied entry by entry and added, in the kernel's order. -/
def dot3 (u : Fin 4 → EReal) (s : Fin 3 → EReal) (i k : Fin 3) : EReal :=
  rs u s i 0 * rs u s k 0 + rs u s i 1 * rs u s k 1 + rs u s i 2 * rs u s k 2

/-- The nine columns the kernel concatenates: the symmetric product row-major, the lower triangle taken from the upper. -/
def cov9 (u : Fin 4 → EReal) (s : Fin 3 → EReal) : Fin 9 → EReal
  | ⟨0, _⟩ => dot3 u s 0 0
  | ⟨1, _⟩ => dot3 u s 0 1
  | ⟨2, _⟩ => dot3 u s 0 2
  | ⟨3, _⟩ => dot3 u s 0 1
  | ⟨4, _⟩ => dot3 u s 1 1
  | ⟨5, _⟩ => dot3 u s 1 2
  | ⟨6, _⟩ => dot3 u s 0 2
  | ⟨7, _⟩ => dot3 u s 1 2
  | ⟨8, _⟩ => dot3 u s 2 2
  | ⟨_ + 9, h⟩ => absurd h (by omega)

/-- Entry (i, k) of a 3 by 3 matrix in a row of nine. -/
def flat9 (i k : Fin 3) : Fin 9 := ⟨3 * i.val + k.val, by omega⟩

/-- The kernel's result at row `n`, entry (i, k), of the two argument arrays. -/
def gK (q : (⟨2, ![4000000, 4]⟩ : Shape).Idx → EReal) (s : (⟨2, ![4000000, 3]⟩ : Shape).Idx → EReal)
    (n : Fin 4000000) (i k : Fin 3) : EReal :=
  cov9 (unitK (row q n)) (row s n) (flat9 i k)

/-- The reference's result at row `n`, entry (i, k): the contraction over the column index. -/
def gR (q : (⟨2, ![4000000, 4]⟩ : Shape).Idx → EReal) (s : (⟨2, ![4000000, 3]⟩ : Shape).Idx → EReal)
    (n : Fin 4000000) (i k : Fin 3) : EReal :=
  ∑ j : Fin 3, rs (unitR (row q n)) (row s n) i j * rs (unitR (row q n)) (row s n) k j

/-- The kernel's whole result array. -/
def GK (q : (⟨2, ![4000000, 4]⟩ : Shape).Idx → EReal) (s : (⟨2, ![4000000, 3]⟩ : Shape).Idx → EReal) :
    (⟨3, ![4000000, 3, 3]⟩ : Shape).Idx → EReal :=
  fun j => gK q s (j 0) (j 1) (j 2)

/-- The reference's whole result array. -/
def GR (q : (⟨2, ![4000000, 4]⟩ : Shape).Idx → EReal) (s : (⟨2, ![4000000, 3]⟩ : Shape).Idx → EReal) :
    (⟨3, ![4000000, 3, 3]⟩ : Shape).Idx → EReal :=
  fun j => gR q s (j 0) (j 1) (j 2)

/-- The kernel's region result on the padded arrays: row `j 0`, column `j 1` of nine. -/
def G9 (qp : (⟨2, ![4001792, 4]⟩ : Shape).Idx → EReal) (sp : (⟨2, ![4001792, 3]⟩ : Shape).Idx → EReal) :
    (⟨2, ![4001792, 9]⟩ : Shape).Idx → EReal :=
  fun j => cov9 (unitK (row qp (j 0))) (row sp (j 0)) (j 1)

end Cert.Cov

end
-- ==== Proof.Payload.lean ====
/-
  What the kernel body leaves in its output block, read at one element: row p, column e of the block is the row
  function's column e of row p of the two input blocks.

  The reading goes bottom up. The normalised quadruple block at (p, c) is the entry times the reciprocal root of the
  row's squared length; its four unit columns are the unit quadruple's entries. The scale block at (p, j) is the
  absolute value plus the small constant; its three unit columns are the scales. The rotation entries, the scaled
  rotation entries and the three-term products are then read pointwise on unit columns, and the nine concatenated
  columns are read one column at a time.
-/
import proofs.«119121_j41480794145202_1_alg».proof.Proof.Gen.KernelIdeal.Frame
import proofs.«119121_j41480794145202_1_alg».proof.Proof.CovSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Idealize.ShloMosaic Idealize.ShloMosaic.ValueIdx Cert.KernelIdeal Cert.KernelIdeal.Gen

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a row's lane sum reads at lane k. -/
theorem lift_row (p : Fin 2048) (k : Fin 4) :
    reduces_S2048x4_S2048.lift (ix1 p) k = ix2 p k := by
  funext a
  match a with
  | ⟨0, _⟩ => exact Fin.ext rfl
  | ⟨1, _⟩ => exact Fin.ext rfl

/-- The lane sum of squares at row p. -/
theorem sumsq_apply (x : FVec Ideal S2048x4 .f32) (p : Fin 2048) :
    multiReduction (F := Ideal) .add [1] S2048 (mulf x x) 0x00000000#32 reduces_S2048x4_S2048 (.inl rfl) rfl (ix1 p)
      = Cert.Cov.sq (Cert.Cov.row x p) := by
  refine (Ideal.multiReduction_add_single (mulf x x) 0x00000000#32 reduces_S2048x4_S2048 (.inl rfl) rfl (ix1 p)).trans ?_
  show ∑ k : Fin 4, mulf x x (reduces_S2048x4_S2048.lift (ix1 p) k) = ∑ k : Fin 4, Cert.Cov.row x p k * Cert.Cov.row x p k
  refine Finset.sum_congr rfl fun k _ => ?_
  rw [lift_row p k]
  rfl

/-- The normalised block at (p, c): the entry times the reciprocal root of its row's squared length. -/
theorem pay2_apply (x0 : Vec Ideal S2048x4 .f32) (p : Fin 2048) (c : Fin 4) :
    k0_pay2 (F := Ideal) x0 (ix2 p c) = Cert.Cov.unitK (Cert.Cov.row x0 p) c := by
  unfold k0_pay2
  rw [shapeCast_self x0 shapeCasts_S2048x4_S2048x4]
  show x0 (ix2 p c) * broadcastTo S2048x4 _ broadcasts_S2048x1_S2048x4 (ix2 p c)
    = x0 (ix2 p c) * Ideal.rsqrt (Cert.Cov.sq (Cert.Cov.row x0 p))
  refine congrArg (x0 (ix2 p c) * ·) ?_
  refine (broadcastTo_a1_ab_apply _ broadcasts_S2048x1_S2048x4 p c).trans ?_
  show Ideal.rsqrt (shapeCast S2048x1 _ shapeCasts_S2048_S2048x1 (ix2 p (0 : Fin 1))) = _
  refine congrArg Ideal.rsqrt ?_
  refine (shapeCast_a_a1_apply _ shapeCasts_S2048_S2048x1 p 0).trans ?_
  exact sumsq_apply x0 p
/-- Column 0 of the normalised block. -/
theorem pay3_apply (x0 : Vec Ideal S2048x4 .f32) (p : Fin 2048) :
    k0_pay3 (F := Ideal) x0 (ix2 p (0 : Fin 1)) = Cert.Cov.unitK (Cert.Cov.row x0 p) 0 := by
  unfold k0_pay3
  refine (slice2_axis1_apply 0 _ slices_S2048x4_o0_0_S2048x1 p (0 : Fin 1) (0 : Fin 4) rfl).trans ?_
  exact pay2_apply x0 p 0

/-- Column 1 of the normalised block. -/
theorem pay4_apply (x0 : Vec Ideal S2048x4 .f32) (p : Fin 2048) :
    k0_pay4 (F := Ideal) x0 (ix2 p (0 : Fin 1)) = Cert.Cov.unitK (Cert.Cov.row x0 p) 1 := by
  unfold k0_pay4
  refine (slice2_axis1_apply 1 _ slices_S2048x4_o0_1_S2048x1 p (0 : Fin 1) (1 : Fin 4) rfl).trans ?_
  exact pay2_apply x0 p 1

/-- Column 2 of the normalised block. -/
theorem pay5_apply (x0 : Vec Ideal S2048x4 .f32) (p : Fin 2048) :
    k0_pay5 (F := Ideal) x0 (ix2 p (0 : Fin 1)) = Cert.Cov.unitK (Cert.Cov.row x0 p) 2 := by
  unfold k0_pay5
  refine (slice2_axis1_apply 2 _ slices_S2048x4_o0_2_S2048x1 p (0 : Fin 1) (2 : Fin 4) rfl).trans ?_
  exact pay2_apply x0 p 2

/-- Column 3 of the normalised block. -/
theorem pay6_apply (x0 : Vec Ideal S2048x4 .f32) (p : Fin 2048) :
    k0_pay6 (F := Ideal) x0 (ix2 p (0 : Fin 1)) = Cert.Cov.unitK (Cert.Cov.row x0 p) 3 := by
  unfold k0_pay6
  refine (slice2_axis1_apply 3 _ slices_S2048x4_o0_3_S2048x1 p (0 : Fin 1) (3 : Fin 4) rfl).trans ?_
  exact pay2_apply x0 p 3

/-- The scale block at (p, j): the absolute value plus the small constant. -/
theorem pay7_apply (x1 : Vec Ideal S2048x3 .f32) (p : Fin 2048) (j : Fin 3) :
    k0_pay7 (F := Ideal) x1 (ix2 p j) = Cert.Cov.scl (Cert.Cov.row x1 p) j := by
  unfold k0_pay7
  rw [shapeCast_self x1 shapeCasts_S2048x3_S2048x3]
  rfl

/-- Column 0 of the scale block. -/
theorem pay8_apply (x1 : Vec Ideal S2048x3 .f32) (p : Fin 2048) :
    k0_pay8 (F := Ideal) x1 (ix2 p (0 : Fin 1)) = Cert.Cov.scl (Cert.Cov.row x1 p) 0 := by
  unfold k0_pay8
  refine (slice2_axis1_apply 0 _ slices_S2048x3_o0_0_S2048x1 p (0 : Fin 1) (0 : Fin 3) rfl).trans ?_
  exact pay7_apply x1 p 0

/-- Column 1 of the scale block. -/
theorem pay9_apply (x1 : Vec Ideal S2048x3 .f32) (p : Fin 2048) :
    k0_pay9 (F := Ideal) x1 (ix2 p (0 : Fin 1)) = Cert.Cov.scl (Cert.Cov.row x1 p) 1 := by
  unfold k0_pay9
  refine (slice2_axis1_apply 1 _ slices_S2048x3_o0_1_S2048x1 p (0 : Fin 1) (1 : Fin 3) rfl).trans ?_
  exact pay7_apply x1 p 1

/-- Column 2 of the scale block. -/
theorem pay10_apply (x1 : Vec Ideal S2048x3 .f32) (p : Fin 2048) :
    k0_pay10 (F := Ideal) x1 (ix2 p (0 : Fin 1)) = Cert.Cov.scl (Cert.Cov.row x1 p) 2 := by
  unfold k0_pay10
  refine (slice2_axis1_apply 2 _ slices_S2048x3_o0_2_S2048x1 p (0 : Fin 1) (2 : Fin 3) rfl).trans ?_
  exact pay7_apply x1 p 2

/-- Rotation entry (0, 0) of the unit quadruple of row p. -/
theorem pay11_apply (x0 : Vec Ideal S2048x4 .f32) (p : Fin 2048) :
    k0_pay11 (F := Ideal) x0 (ix2 p (0 : Fin 1)) = Cert.Cov.rot (Cert.Cov.unitK (Cert.Cov.row x0 p)) 0 0 := by
  unfold k0_pay11
  show Ideal.ofBits .f32 0x3F800000#32 - Ideal.ofBits .f32 0x40000000#32 * (k0_pay5 (F := Ideal) x0 (ix2 p (0 : Fin 1)) * k0_pay5 (F := Ideal) x0 (ix2 p (0 : Fin 1))
      + k0_pay6 (F := Ideal) x0 (ix2 p (0 : Fin 1)) * k0_pay6 (F := Ideal) x0 (ix2 p (0 : Fin 1))) = _
  rw [pay5_apply, pay6_apply]
  rfl

/-- Rotation entry (0, 1). -/
theorem pay12_apply (x0 : Vec Ideal S2048x4 .f32) (p : Fin 2048) :
    k0_pay12 (F := Ideal) x0 (ix2 p (0 : Fin 1)) = Cert.Cov.rot (Cert.Cov.unitK (Cert.Cov.row x0 p)) 0 1 := by
  unfold k0_pay12
  show Ideal.ofBits .f32 0x40000000#32 * (k0_pay4 (F := Ideal) x0 (ix2 p (0 : Fin 1)) * k0_pay5 (F := Ideal) x0 (ix2 p (0 : Fin 1))
      - k0_pay3 (F := Ideal) x0 (ix2 p (0 : Fin 1)) * k0_pay6 (F := Ideal) x0 (ix2 p (0 : Fin 1))) = _
  rw [pay3_apply, pay4_apply, pay5_apply, pay6_apply]
  rfl

/-- Rotation entry (0, 2). -/
theorem pay13_apply (x0 : Vec Ideal S2048x4 .f32) (p : Fin 2048) :
    k0_pay13 (F := Ideal) x0 (ix2 p (0 : Fin 1)) = Cert.Cov.rot (Cert.Cov.unitK (Cert.Cov.row x0 p)) 0 2 := by
  unfold k0_pay13
  show Ideal.ofBits .f32 0x40000000#32 * (k0_pay4 (F := Ideal) x0 (ix2 p (0 : Fin 1)) * k0_pay6 (F := Ideal) x0 (ix2 p (0 : Fin 1))
      + k0_pay3 (F := Ideal) x0 (ix2 p (0 : Fin 1)) * k0_pay5 (F := Ideal) x0 (ix2 p (0 : Fin 1))) = _
  rw [pay3_apply, pay4_apply, pay5_apply, pay6_apply]
  rfl

/-- Rotation entry (1, 0). -/
theorem pay14_apply (x0 : Vec Ideal S2048x4 .f32) (p : Fin 2048) :
    k0_pay14 (F := Ideal) x0 (ix2 p (0 : Fin 1)) = Cert.Cov.rot (Cert.Cov.unitK (Cert.Cov.row x0 p)) 1 0 := by
  unfold k0_pay14
  show Ideal.ofBits .f32 0x40000000#32 * (k0_pay4 (F := Ideal) x0 (ix2 p (0 : Fin 1)) * k0_pay5 (F := Ideal) x0 (ix2 p (0 : Fin 1))
      + k0_pay3 (F := Ideal) x0 (ix2 p (0 : Fin 1)) * k0_pay6 (F := Ideal) x0 (ix2 p (0 : Fin 1))) = _
  rw [pay3_apply, pay4_apply, pay5_apply, pay6_apply]
  rfl

/-- The doubled sum of squares that rotation entry (1, 1) takes from one. -/
theorem pay15_apply (x0 : Vec Ideal S2048x4 .f32) (p : Fin 2048) :
    k0_pay15 (F := Ideal) x0 (ix2 p (0 : Fin 1)) = Ideal.ofBits .f32 0x40000000#32 * (Cert.Cov.unitK (Cert.Cov.row x0 p) 1 * Cert.Cov.unitK (Cert.Cov.row x0 p) 1
      + Cert.Cov.unitK (Cert.Cov.row x0 p) 3 * Cert.Cov.unitK (Cert.Cov.row x0 p) 3) := by
  unfold k0_pay15
  show Ideal.ofBits .f32 0x40000000#32 * (k0_pay4 (F := Ideal) x0 (ix2 p (0 : Fin 1)) * k0_pay4 (F := Ideal) x0 (ix2 p (0 : Fin 1))
      + k0_pay6 (F := Ideal) x0 (ix2 p (0 : Fin 1)) * k0_pay6 (F := Ideal) x0 (ix2 p (0 : Fin 1))) = _
  rw [pay4_apply, pay6_apply]

/-- Scaled rotation entry (0, 0). -/
theorem pay16_apply (v17 v26 : FVec Ideal S2048x1 .f32) (p : Fin 2048) (u : Fin 4 → EReal) (s : Fin 3 → EReal)
    (h17 : v17 (ix2 p (0 : Fin 1)) = Cert.Cov.scl s 0) (h26 : v26 (ix2 p (0 : Fin 1)) = Cert.Cov.rot u 0 0) :
    k0_pay16 v17 v26 (ix2 p (0 : Fin 1)) = Cert.Cov.rs u s 0 0 := by
  unfold k0_pay16
  show v26 (ix2 p (0 : Fin 1)) * v17 (ix2 p (0 : Fin 1)) = _
  rw [h17, h26]
  rfl

/-- Scaled rotation entry (0, 1). -/
theorem pay17_apply (v18 v31 : FVec Ideal S2048x1 .f32) (p : Fin 2048) (u : Fin 4 → EReal) (s : Fin 3 → EReal)
    (h18 : v18 (ix2 p (0 : Fin 1)) = Cert.Cov.scl s 1) (h31 : v31 (ix2 p (0 : Fin 1)) = Cert.Cov.rot u 0 1) :
    k0_pay17 v18 v31 (ix2 p (0 : Fin 1)) = Cert.Cov.rs u s 0 1 := by
  unfold k0_pay17
  show v31 (ix2 p (0 : Fin 1)) * v18 (ix2 p (0 : Fin 1)) = _
  rw [h18, h31]
  rfl

/-- Scaled rotation entry (0, 2). -/
theorem pay18_apply (v19 v36 : FVec Ideal S2048x1 .f32) (p : Fin 2048) (u : Fin 4 → EReal) (s : Fin 3 → EReal)
    (h19 : v19 (ix2 p (0 : Fin 1)) = Cert.Cov.scl s 2) (h36 : v36 (ix2 p (0 : Fin 1)) = Cert.Cov.rot u 0 2) :
    k0_pay18 v19 v36 (ix2 p (0 : Fin 1)) = Cert.Cov.rs u s 0 2 := by
  unfold k0_pay18
  show v36 (ix2 p (0 : Fin 1)) * v19 (ix2 p (0 : Fin 1)) = _
  rw [h19, h36]
  rfl

/-- Scaled rotation entry (1, 0). -/
theorem pay19_apply (v17 v41 : FVec Ideal S2048x1 .f32) (p : Fin 2048) (u : Fin 4 → EReal) (s : Fin 3 → EReal)
    (h17 : v17 (ix2 p (0 : Fin 1)) = Cert.Cov.scl s 0) (h41 : v41 (ix2 p (0 : Fin 1)) = Cert.Cov.rot u 1 0) :
    k0_pay19 v17 v41 (ix2 p (0 : Fin 1)) = Cert.Cov.rs u s 1 0 := by
  unfold k0_pay19
  show v41 (ix2 p (0 : Fin 1)) * v17 (ix2 p (0 : Fin 1)) = _
  rw [h17, h41]
  rfl

/-- Scaled rotation entry (1, 1): one less the doubled sum of squares, times the scale. -/
theorem pay20_apply (v18 v46 : FVec Ideal S2048x1 .f32) (p : Fin 2048) (u : Fin 4 → EReal) (s : Fin 3 → EReal)
    (h18 : v18 (ix2 p (0 : Fin 1)) = Cert.Cov.scl s 1) (h46 : v46 (ix2 p (0 : Fin 1)) = Ideal.ofBits .f32 0x40000000#32 * (u 1 * u 1 + u 3 * u 3)) :
    k0_pay20 v18 v46 (ix2 p (0 : Fin 1)) = Cert.Cov.rs u s 1 1 := by
  unfold k0_pay20
  show (Ideal.ofBits .f32 0x3F800000#32 - v46 (ix2 p (0 : Fin 1))) * v18 (ix2 p (0 : Fin 1)) = _
  rw [h18, h46]
  rfl

/-- Scaled rotation entry (1, 2). -/
theorem pay21_apply (v8 v9 v10 v11 v19 : FVec Ideal S2048x1 .f32) (p : Fin 2048) (u : Fin 4 → EReal) (s : Fin 3 → EReal)
    (h8 : v8 (ix2 p (0 : Fin 1)) = u 0) (h9 : v9 (ix2 p (0 : Fin 1)) = u 1)
    (h10 : v10 (ix2 p (0 : Fin 1)) = u 2) (h11 : v11 (ix2 p (0 : Fin 1)) = u 3)
    (h19 : v19 (ix2 p (0 : Fin 1)) = Cert.Cov.scl s 2) :
    k0_pay21 v8 v9 v10 v11 v19 (ix2 p (0 : Fin 1)) = Cert.Cov.rs u s 1 2 := by
  unfold k0_pay21
  show Ideal.ofBits .f32 0x40000000#32 * (v10 (ix2 p (0 : Fin 1)) * v11 (ix2 p (0 : Fin 1)) - v8 (ix2 p (0 : Fin 1)) * v9 (ix2 p (0 : Fin 1))) * v19 (ix2 p (0 : Fin 1)) = _
  rw [h8, h9, h10, h11, h19]
  rfl

/-- Scaled rotation entry (2, 0). -/
theorem pay22_apply (v8 v9 v10 v11 v17 : FVec Ideal S2048x1 .f32) (p : Fin 2048) (u : Fin 4 → EReal) (s : Fin 3 → EReal)
    (h8 : v8 (ix2 p (0 : Fin 1)) = u 0) (h9 : v9 (ix2 p (0 : Fin 1)) = u 1)
    (h10 : v10 (ix2 p (0 : Fin 1)) = u 2) (h11 : v11 (ix2 p (0 : Fin 1)) = u 3)
    (h17 : v17 (ix2 p (0 : Fin 1)) = Cert.Cov.scl s 0) :
    k0_pay22 v8 v9 v10 v11 v17 (ix2 p (0 : Fin 1)) = Cert.Cov.rs u s 2 0 := by
  unfold k0_pay22
  show Ideal.ofBits .f32 0x40000000#32 * (v9 (ix2 p (0 : Fin 1)) * v11 (ix2 p (0 : Fin 1)) - v8 (ix2 p (0 : Fin 1)) * v10 (ix2 p (0 : Fin 1))) * v17 (ix2 p (0 : Fin 1)) = _
  rw [h8, h9, h10, h11, h17]
  rfl

/-- Scaled rotation entry (2, 1). -/
theorem pay23_apply (v8 v9 v10 v11 v18 : FVec Ideal S2048x1 .f32) (p : Fin 2048) (u : Fin 4 → EReal) (s : Fin 3 → EReal)
    (h8 : v8 (ix2 p (0 : Fin 1)) = u 0) (h9 : v9 (ix2 p (0 : Fin 1)) = u 1)
    (h10 : v10 (ix2 p (0 : Fin 1)) = u 2) (h11 : v11 (ix2 p (0 : Fin 1)) = u 3)
    (h18 : v18 (ix2 p (0 : Fin 1)) = Cert.Cov.scl s 1) :
    k0_pay23 v8 v9 v10 v11 v18 (ix2 p (0 : Fin 1)) = Cert.Cov.rs u s 2 1 := by
  unfold k0_pay23
  show Ideal.ofBits .f32 0x40000000#32 * (v10 (ix2 p (0 : Fin 1)) * v11 (ix2 p (0 : Fin 1)) + v8 (ix2 p (0 : Fin 1)) * v9 (ix2 p (0 : Fin 1))) * v18 (ix2 p (0 : Fin 1)) = _
  rw [h8, h9, h10, h11, h18]
  rfl

/-- Scaled rotation entry (2, 2). -/
theorem pay24_apply (v9 v10 v19 : FVec Ideal S2048x1 .f32) (p : Fin 2048) (u : Fin 4 → EReal) (s : Fin 3 → EReal)
    (h9 : v9 (ix2 p (0 : Fin 1)) = u 1) (h10 : v10 (ix2 p (0 : Fin 1)) = u 2)
    (h19 : v19 (ix2 p (0 : Fin 1)) = Cert.Cov.scl s 2) :
    k0_pay24 v9 v10 v19 (ix2 p (0 : Fin 1)) = Cert.Cov.rs u s 2 2 := by
  unfold k0_pay24
  show (Ideal.ofBits .f32 0x3F800000#32 - Ideal.ofBits .f32 0x40000000#32 * (v9 (ix2 p (0 : Fin 1)) * v9 (ix2 p (0 : Fin 1)) + v10 (ix2 p (0 : Fin 1)) * v10 (ix2 p (0 : Fin 1)))) * v19 (ix2 p (0 : Fin 1)) = _
  rw [h9, h10, h19]
  rfl

/-- Product entry (0, 0): row 0 of the scaled rotation with itself. -/
theorem pay25_apply (v17 v18 v19 v26 v31 v36 : FVec Ideal S2048x1 .f32) (p : Fin 2048) (u : Fin 4 → EReal) (s : Fin 3 → EReal)
    (h17 : v17 (ix2 p (0 : Fin 1)) = Cert.Cov.scl s 0) (h18 : v18 (ix2 p (0 : Fin 1)) = Cert.Cov.scl s 1)
    (h19 : v19 (ix2 p (0 : Fin 1)) = Cert.Cov.scl s 2) (h26 : v26 (ix2 p (0 : Fin 1)) = Cert.Cov.rot u 0 0)
    (h31 : v31 (ix2 p (0 : Fin 1)) = Cert.Cov.rot u 0 1) (h36 : v36 (ix2 p (0 : Fin 1)) = Cert.Cov.rot u 0 2) :
    k0_pay25 v17 v18 v19 v26 v31 v36 (ix2 p (0 : Fin 1)) = Cert.Cov.dot3 u s 0 0 := by
  unfold k0_pay25
  show k0_pay16 v17 v26 (ix2 p (0 : Fin 1)) * k0_pay16 v17 v26 (ix2 p (0 : Fin 1)) + k0_pay17 v18 v31 (ix2 p (0 : Fin 1)) * k0_pay17 v18 v31 (ix2 p (0 : Fin 1)) + k0_pay18 v19 v36 (ix2 p (0 : Fin 1)) * k0_pay18 v19 v36 (ix2 p (0 : Fin 1)) = _
  rw [pay16_apply v17 v26 p u s h17 h26, pay17_apply v18 v31 p u s h18 h31, pay18_apply v19 v36 p u s h19 h36]
  rfl

/-- Product entry (0, 1): rows 0 and 1. -/
theorem pay26_apply (v8 v9 v10 v11 v17 v18 v19 v26 v31 v36 v41 v46 : FVec Ideal S2048x1 .f32) (p : Fin 2048) (u : Fin 4 → EReal) (s : Fin 3 → EReal)
    (h8 : v8 (ix2 p (0 : Fin 1)) = u 0) (h9 : v9 (ix2 p (0 : Fin 1)) = u 1)
    (h10 : v10 (ix2 p (0 : Fin 1)) = u 2) (h11 : v11 (ix2 p (0 : Fin 1)) = u 3)
    (h17 : v17 (ix2 p (0 : Fin 1)) = Cert.Cov.scl s 0) (h18 : v18 (ix2 p (0 : Fin 1)) = Cert.Cov.scl s 1)
    (h19 : v19 (ix2 p (0 : Fin 1)) = Cert.Cov.scl s 2) (h26 : v26 (ix2 p (0 : Fin 1)) = Cert.Cov.rot u 0 0)
    (h31 : v31 (ix2 p (0 : Fin 1)) = Cert.Cov.rot u 0 1) (h36 : v36 (ix2 p (0 : Fin 1)) = Cert.Cov.rot u 0 2)
    (h41 : v41 (ix2 p (0 : Fin 1)) = Cert.Cov.rot u 1 0) (h46 : v46 (ix2 p (0 : Fin 1)) = Ideal.ofBits .f32 0x40000000#32 * (u 1 * u 1 + u 3 * u 3)) :
    k0_pay26 v8 v9 v10 v11 v17 v18 v19 v26 v31 v36 v41 v46 (ix2 p (0 : Fin 1)) = Cert.Cov.dot3 u s 0 1 := by
  unfold k0_pay26
  show k0_pay16 v17 v26 (ix2 p (0 : Fin 1)) * k0_pay19 v17 v41 (ix2 p (0 : Fin 1)) + k0_pay17 v18 v31 (ix2 p (0 : Fin 1)) * k0_pay20 v18 v46 (ix2 p (0 : Fin 1)) + k0_pay18 v19 v36 (ix2 p (0 : Fin 1)) * k0_pay21 v8 v9 v10 v11 v19 (ix2 p (0 : Fin 1)) = _
  rw [pay16_apply v17 v26 p u s h17 h26, pay17_apply v18 v31 p u s h18 h31, pay18_apply v19 v36 p u s h19 h36, pay19_apply v17 v41 p u s h17 h41, pay20_apply v18 v46 p u s h18 h46, pay21_apply v8 v9 v10 v11 v19 p u s h8 h9 h10 h11 h19]
  rfl

/-- Product entry (0, 2): rows 0 and 2. -/
theorem pay27_apply (v8 v9 v10 v11 v17 v18 v19 v26 v31 v36 : FVec Ideal S2048x1 .f32) (p : Fin 2048) (u : Fin 4 → EReal) (s : Fin 3 → EReal)
    (h8 : v8 (ix2 p (0 : Fin 1)) = u 0) (h9 : v9 (ix2 p (0 : Fin 1)) = u 1)
    (h10 : v10 (ix2 p (0 : Fin 1)) = u 2) (h11 : v11 (ix2 p (0 : Fin 1)) = u 3)
    (h17 : v17 (ix2 p (0 : Fin 1)) = Cert.Cov.scl s 0) (h18 : v18 (ix2 p (0 : Fin 1)) = Cert.Cov.scl s 1)
    (h19 : v19 (ix2 p (0 : Fin 1)) = Cert.Cov.scl s 2) (h26 : v26 (ix2 p (0 : Fin 1)) = Cert.Cov.rot u 0 0)
    (h31 : v31 (ix2 p (0 : Fin 1)) = Cert.Cov.rot u 0 1) (h36 : v36 (ix2 p (0 : Fin 1)) = Cert.Cov.rot u 0 2) :
    k0_pay27 v8 v9 v10 v11 v17 v18 v19 v26 v31 v36 (ix2 p (0 : Fin 1)) = Cert.Cov.dot3 u s 0 2 := by
  unfold k0_pay27
  show k0_pay16 v17 v26 (ix2 p (0 : Fin 1)) * k0_pay22 v8 v9 v10 v11 v17 (ix2 p (0 : Fin 1)) + k0_pay17 v18 v31 (ix2 p (0 : Fin 1)) * k0_pay23 v8 v9 v10 v11 v18 (ix2 p (0 : Fin 1)) + k0_pay18 v19 v36 (ix2 p (0 : Fin 1)) * k0_pay24 v9 v10 v19 (ix2 p (0 : Fin 1)) = _
  rw [pay16_apply v17 v26 p u s h17 h26, pay17_apply v18 v31 p u s h18 h31, pay18_apply v19 v36 p u s h19 h36, pay22_apply v8 v9 v10 v11 v17 p u s h8 h9 h10 h11 h17, pay23_apply v8 v9 v10 v11 v18 p u s h8 h9 h10 h11 h18, pay24_apply v9 v10 v19 p u s h9 h10 h19]
  rfl

/-- Product entry (1, 1): row 1 with itself. -/
theorem pay28_apply (v8 v9 v10 v11 v17 v18 v19 v41 v46 : FVec Ideal S2048x1 .f32) (p : Fin 2048) (u : Fin 4 → EReal) (s : Fin 3 → EReal)
    (h8 : v8 (ix2 p (0 : Fin 1)) = u 0) (h9 : v9 (ix2 p (0 : Fin 1)) = u 1)
    (h10 : v10 (ix2 p (0 : Fin 1)) = u 2) (h11 : v11 (ix2 p (0 : Fin 1)) = u 3)
    (h17 : v17 (ix2 p (0 : Fin 1)) = Cert.Cov.scl s 0) (h18 : v18 (ix2 p (0 : Fin 1)) = Cert.Cov.scl s 1)
    (h19 : v19 (ix2 p (0 : Fin 1)) = Cert.Cov.scl s 2) (h41 : v41 (ix2 p (0 : Fin 1)) = Cert.Cov.rot u 1 0)
    (h46 : v46 (ix2 p (0 : Fin 1)) = Ideal.ofBits .f32 0x40000000#32 * (u 1 * u 1 + u 3 * u 3)) :
    k0_pay28 v8 v9 v10 v11 v17 v18 v19 v41 v46 (ix2 p (0 : Fin 1)) = Cert.Cov.dot3 u s 1 1 := by
  unfold k0_pay28
  show k0_pay19 v17 v41 (ix2 p (0 : Fin 1)) * k0_pay19 v17 v41 (ix2 p (0 : Fin 1)) + k0_pay20 v18 v46 (ix2 p (0 : Fin 1)) * k0_pay20 v18 v46 (ix2 p (0 : Fin 1)) + k0_pay21 v8 v9 v10 v11 v19 (ix2 p (0 : Fin 1)) * k0_pay21 v8 v9 v10 v11 v19 (ix2 p (0 : Fin 1)) = _
  rw [pay19_apply v17 v41 p u s h17 h41, pay20_apply v18 v46 p u s h18 h46, pay21_apply v8 v9 v10 v11 v19 p u s h8 h9 h10 h11 h19]
  rfl

/-- The first term of product entry (1, 2). -/
theorem pay29_apply (v8 v9 v10 v11 v17 v41 : FVec Ideal S2048x1 .f32) (p : Fin 2048) (u : Fin 4 → EReal) (s : Fin 3 → EReal)
    (h8 : v8 (ix2 p (0 : Fin 1)) = u 0) (h9 : v9 (ix2 p (0 : Fin 1)) = u 1)
    (h10 : v10 (ix2 p (0 : Fin 1)) = u 2) (h11 : v11 (ix2 p (0 : Fin 1)) = u 3)
    (h17 : v17 (ix2 p (0 : Fin 1)) = Cert.Cov.scl s 0) (h41 : v41 (ix2 p (0 : Fin 1)) = Cert.Cov.rot u 1 0) :
    k0_pay29 v8 v9 v10 v11 v17 v41 (ix2 p (0 : Fin 1)) = Cert.Cov.rs u s 1 0 * Cert.Cov.rs u s 2 0 := by
  unfold k0_pay29
  show k0_pay19 v17 v41 (ix2 p (0 : Fin 1)) * k0_pay22 v8 v9 v10 v11 v17 (ix2 p (0 : Fin 1)) = _
  rw [pay19_apply v17 v41 p u s h17 h41, pay22_apply v8 v9 v10 v11 v17 p u s h8 h9 h10 h11 h17]

/-- Nine-column concatenation read at (p, e): the piece the column names, at row p. The pieces before it are unit
    columns, so their extents sum to the column number. -/
theorem concat_col_apply (xs : List ((s : Shape) × (s.Idx → α))) (h : Shape.Concatenates (xs.map (·.1)) S2048x9 1)
    (p : Fin 2048) (e : Fin 9) (hk : e.val < xs.length) (x : S2048x1.Idx → α) (hxk : xs[e.val] = ⟨S2048x1, x⟩)
    (hpre : (((xs.take e.val).map (·.1)).map fun s => if h : s.rank = S2048x9.rank then s.size ((1 : Fin 2).cast h.symm) else 0).sum
      = e.val) :
    concatenate S2048x9 1 xs h (ix2 p e) = x (ix2 p (0 : Fin 1)) :=
  concatenate_apply_piece (1 : Fin 2) xs h (ix2 p e) e.val hk S2048x1 x hxk rfl e.val hpre (ix2 p (0 : Fin 1))
    (fun b hb => match b, hb with
      | ⟨0, _⟩, _ => rfl
      | ⟨1, _⟩, hb => absurd rfl hb) rfl

/-- The nine concatenated columns at (p, e): the symmetric product's row-major entries, the lower triangle read off
    the upper. -/
theorem pay1_apply (v75 v76 v77 v78 v79 v84 v89 v94 v99 v100 : FVec Ideal S2048x1 .f32) (p : Fin 2048) (u : Fin 4 → EReal) (s : Fin 3 → EReal)
    (h75 : v75 (ix2 p (0 : Fin 1)) = Cert.Cov.rs u s 1 1) (h76 : v76 (ix2 p (0 : Fin 1)) = Cert.Cov.rs u s 1 2)
    (h77 : v77 (ix2 p (0 : Fin 1)) = Cert.Cov.rs u s 2 0) (h78 : v78 (ix2 p (0 : Fin 1)) = Cert.Cov.rs u s 2 1)
    (h79 : v79 (ix2 p (0 : Fin 1)) = Cert.Cov.rs u s 2 2) (h84 : v84 (ix2 p (0 : Fin 1)) = Cert.Cov.dot3 u s 0 0)
    (h89 : v89 (ix2 p (0 : Fin 1)) = Cert.Cov.dot3 u s 0 1) (h94 : v94 (ix2 p (0 : Fin 1)) = Cert.Cov.dot3 u s 0 2)
    (h99 : v99 (ix2 p (0 : Fin 1)) = Cert.Cov.dot3 u s 1 1)
    (h100 : v100 (ix2 p (0 : Fin 1)) = Cert.Cov.rs u s 1 0 * Cert.Cov.rs u s 2 0) (e : Fin 9) :
    k0_pay1 v75 v76 v77 v78 v79 v84 v89 v94 v99 v100 (ix2 p e) = Cert.Cov.cov9 u s e := by
  unfold k0_pay1
  match e with
  | ⟨0, _⟩ =>
    refine Eq.trans (concat_col_apply _ _ p (⟨0, by omega⟩ : Fin 9) (by show (0 : Nat) < 9; omega) _ rfl rfl) ?_
    exact h84
  | ⟨1, _⟩ =>
    refine Eq.trans (concat_col_apply _ _ p (⟨1, by omega⟩ : Fin 9) (by show (1 : Nat) < 9; omega) _ rfl rfl) ?_
    exact h89
  | ⟨2, _⟩ =>
    refine Eq.trans (concat_col_apply _ _ p (⟨2, by omega⟩ : Fin 9) (by show (2 : Nat) < 9; omega) _ rfl rfl) ?_
    exact h94
  | ⟨3, _⟩ =>
    refine Eq.trans (concat_col_apply _ _ p (⟨3, by omega⟩ : Fin 9) (by show (3 : Nat) < 9; omega) _ rfl rfl) ?_
    exact h89
  | ⟨4, _⟩ =>
    refine Eq.trans (concat_col_apply _ _ p (⟨4, by omega⟩ : Fin 9) (by show (4 : Nat) < 9; omega) _ rfl rfl) ?_
    exact h99
  | ⟨5, _⟩ =>
    refine Eq.trans (concat_col_apply _ _ p (⟨5, by omega⟩ : Fin 9) (by show (5 : Nat) < 9; omega) _ rfl rfl) ?_
    show v100 (ix2 p (0 : Fin 1)) + v75 (ix2 p (0 : Fin 1)) * v78 (ix2 p (0 : Fin 1)) + v76 (ix2 p (0 : Fin 1)) * v79 (ix2 p (0 : Fin 1)) = _
    rw [h100, h75, h78, h76, h79]
    rfl
  | ⟨6, _⟩ =>
    refine Eq.trans (concat_col_apply _ _ p (⟨6, by omega⟩ : Fin 9) (by show (6 : Nat) < 9; omega) _ rfl rfl) ?_
    exact h94
  | ⟨7, _⟩ =>
    refine Eq.trans (concat_col_apply _ _ p (⟨7, by omega⟩ : Fin 9) (by show (7 : Nat) < 9; omega) _ rfl rfl) ?_
    show v100 (ix2 p (0 : Fin 1)) + v75 (ix2 p (0 : Fin 1)) * v78 (ix2 p (0 : Fin 1)) + v76 (ix2 p (0 : Fin 1)) * v79 (ix2 p (0 : Fin 1)) = _
    rw [h100, h75, h78, h76, h79]
    rfl
  | ⟨8, _⟩ =>
    refine Eq.trans (concat_col_apply _ _ p (⟨8, by omega⟩ : Fin 9) (by show (8 : Nat) < 9; omega) _ rfl rfl) ?_
    show v77 (ix2 p (0 : Fin 1)) * v77 (ix2 p (0 : Fin 1)) + v78 (ix2 p (0 : Fin 1)) * v78 (ix2 p (0 : Fin 1)) + v79 (ix2 p (0 : Fin 1)) * v79 (ix2 p (0 : Fin 1)) = _
    rw [h77, h78, h79]
    rfl
  | ⟨_ + 9, h⟩ => exact absurd h (by omega)

/-- The output block at (p, e) from the two input blocks. -/
theorem out0_2_apply (x0 : Vec Ideal S2048x4 .f32) (x1 : Vec Ideal S2048x3 .f32) (p : Fin 2048) (e : Fin 9) :
    out0_2 (F := Ideal) x0 x1 (ix2 p e) = Cert.Cov.cov9 (Cert.Cov.unitK (Cert.Cov.row x0 p)) (Cert.Cov.row x1 p) e := by
  have hz : (![0, 0] : Fin 2 → Nat) = fun _ => 0 := funext fun a => by fin_cases a <;> rfl
  unfold out0_2
  rw [View.canon_unit_zero hz]
  simp only [View.ld_unit_zero (S := S2048x4) hz, View.ld_unit_zero (S := S2048x3) hz]
  have h8 := pay3_apply x0 p
  have h9 := pay4_apply x0 p
  have h10 := pay5_apply x0 p
  have h11 := pay6_apply x0 p
  have h17 := pay8_apply x1 p
  have h18 := pay9_apply x1 p
  have h19 := pay10_apply x1 p
  have h26 := pay11_apply x0 p
  have h31 := pay12_apply x0 p
  have h36 := pay13_apply x0 p
  have h41 := pay14_apply x0 p
  have h46 := pay15_apply x0 p
  exact pay1_apply _ _ _ _ _ _ _ _ _ _ p (Cert.Cov.unitK (Cert.Cov.row x0 p)) (Cert.Cov.row x1 p)
    (pay20_apply _ _ p _ _ h18 h46)
    (pay21_apply _ _ _ _ _ p _ _ h8 h9 h10 h11 h19)
    (pay22_apply _ _ _ _ _ p _ _ h8 h9 h10 h11 h17)
    (pay23_apply _ _ _ _ _ p _ _ h8 h9 h10 h11 h18)
    (pay24_apply _ _ _ p _ _ h9 h10 h19)
    (pay25_apply _ _ _ _ _ _ p _ _ h17 h18 h19 h26 h31 h36)
    (pay26_apply _ _ _ _ _ _ _ _ _ _ _ _ p _ _ h8 h9 h10 h11 h17 h18 h19 h26 h31 h36 h41 h46)
    (pay27_apply _ _ _ _ _ _ _ _ _ _ p _ _ h8 h9 h10 h11 h17 h18 h19 h26 h31 h36)
    (pay28_apply _ _ _ _ _ _ _ _ _ p _ _ h8 h9 h10 h11 h17 h18 h19 h41 h46)
    (pay29_apply _ _ _ _ _ _ p _ _ h8 h9 h10 h11 h17 h41)
    e

end Cert.KernelIdeal.Payload

end
-- ==== Proof.Blocks.lean ====
/-
  From blocks to the array. Grid point t writes back rows 2048·t … 2048·t + 2047 of the region's [4001792, 9]
  result; what it writes is the row function of the same rows of the two padded operands, because all three
  windows move together (block index (t, 0) on each). The 1954 blocks tile the result, so after the run the whole
  array is the row function of the padded operands, row by row.
-/
import proofs.«119121_j41480794145202_1_alg».proof.Proof.Payload
import Idealize.ShloMosaic.Lib.Pipeline.Value
import Idealize.ShloMosaic.Lib.ValueIdx

set_option maxRecDepth 16384

noncomputable section

namespace Cert.KernelIdeal.Blocks

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-- The padded quaternion array as the region finds it. -/
abbrev qp (c : Dev nD) : S4001792x4.Idx → EReal := V m c main_v0
/-- The padded scale array as the region finds it. -/
abbrev sp (c : Dev nD) : S4001792x3.Idx → EReal := V m c main_v1
/-- Point t's block of the padded quaternion array. -/
abbrev qblk (c : Dev nD) (t : Fin cfg0.N) : Vec Ideal S2048x4 .f32 := iblk m c 0 t
/-- Point t's block of the padded scale array. -/
abbrev sblk (c : Dev nD) (t : Fin cfg0.N) : Vec Ideal S2048x3 .f32 := iblk m c 1 t

/-- The output block at an index of its own shape: the row function's column of that row of the input blocks. -/
theorem block_entry (x0 : Vec Ideal S2048x4 .f32) (x1 : Vec Ideal S2048x3 .f32) (y : S2048x9.Idx) :
    out0_2 (F := Ideal) x0 x1 y = Cert.Cov.cov9 (Cert.Cov.unitK (Cert.Cov.row x0 (y 0))) (Cert.Cov.row x1 (y 0)) (y 1) := by
  exact (congrArg (out0_2 (F := Ideal) x0 x1) (eq_ix2 y)).trans (Cert.KernelIdeal.Payload.out0_2_apply x0 x1 (y 0) (y 1))

/-- The printed index maps over the grid: at point t every window's block index is (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0)

/-- Row r of point t's quaternion block is row 2048·t + r of the padded array. -/
theorem qblk_row (c : Dev nD) (t : Fin cfg0.N) (j : S2048x9.Idx) :
    Cert.Cov.row (qblk m c t) (j 0) = Cert.Cov.row (qp m c) ((((cfg0.win 2).blk t).view.emb j) 0) := by
  obtain ⟨e00, e01, -, -, e20, -⟩ := idx_facts t
  funext k
  show V m c main_v0 (((cfg0.win 0).blk t).view.emb (ix2 (j 0) k)) = V m c main_v0 (ix2 ((((cfg0.win 2).blk t).view.emb j) 0) k)
  refine congrArg (V m c main_v0) (funext fun a => Fin.ext ?_)
  match a with
  | ⟨0, _⟩ =>
    show win0_0.index t (0 : Fin 2) * 2048 + 1 * (j 0).val = win0_2.index t (0 : Fin 2) * 2048 + 1 * (j 0).val
    omega
  | ⟨1, _⟩ =>
    show win0_0.index t (1 : Fin 2) * 4 + 1 * k.val = k.val
    omega

/-- Row r of point t's scale block is row 2048·t + r of the padded array. -/
theorem sblk_row (c : Dev nD) (t : Fin cfg0.N) (j : S2048x9.Idx) :
    Cert.Cov.row (sblk m c t) (j 0) = Cert.Cov.row (sp m c) ((((cfg0.win 2).blk t).view.emb j) 0) := by
  obtain ⟨-, -, e10, e11, e20, -⟩ := idx_facts t
  funext k
  show V m c main_v1 (((cfg0.win 1).blk t).view.emb (ix2 (j 0) k)) = V m c main_v1 (ix2 ((((cfg0.win 2).blk t).view.emb j) 0) k)
  refine congrArg (V m c main_v1) (funext fun a => Fin.ext ?_)
  match a with
  | ⟨0, _⟩ =>
    show win0_1.index t (0 : Fin 2) * 2048 + 1 * (j 0).val = win0_2.index t (0 : Fin 2) * 2048 + 1 * (j 0).val
    omega
  | ⟨1, _⟩ =>
    show win0_1.index t (1 : Fin 2) * 3 + 1 * k.val = k.val
    omega

/-- The output block's column is the array's column: the window spans all nine. -/
theorem col_eq (t : Fin cfg0.N) (j : S2048x9.Idx) : (j 1 : Fin 9) = (((cfg0.win 2).blk t).view.emb j) 1 := by
  obtain ⟨-, -, -, -, -, e21⟩ := idx_facts t
  apply Fin.ext
  show (j 1).val = win0_2.index t (1 : Fin 2) * 9 + 1 * (j 1).val
  omega

/-- What point t writes back is block t of the row function of the padded operands. -/
theorem flushed2_eq (c : Dev nD) (t : Fin cfg0.N) :
    (dats m 0 c).flushed 2 t = ((cfg0.win 2).blk t).view.read (Elt Ideal) (Cert.Cov.G9 (qp m c) (sp m c)) := by
  show (cfg0.win 2).cut (grid0.coords t) ((dats m 0 c).after 2 t) = _
  rw [after0_2]
  funext j
  show out0_2 (F := Ideal) (qblk m c t) (sblk m c t) j
      = Cert.Cov.cov9 (Cert.Cov.unitK (Cert.Cov.row (qp m c) ((((cfg0.win 2).blk t).view.emb j) 0)))
          (Cert.Cov.row (sp m c) ((((cfg0.win 2).blk t).view.emb j) 0)) ((((cfg0.win 2).blk t).view.emb j) 1)
  rw [block_entry (qblk m c t) (sblk m c t) j, qblk_row m c t j, sblk_row m c t j, col_eq t j]

/-- An index of the result is in point t's block iff each coordinate is in the block's range on its axis. -/
theorem mem_blk2 (t : Fin cfg0.N) (i : S4001792x9.Idx) :
    i ∈ ((cfg0.win 2).blk t).view.set ↔ ∀ a : Fin 2, win0_2.index t a * S2048x9.size a ≤ (i a).val ∧ (i a).val < win0_2.index t a * S2048x9.size a + S2048x9.size a := by
  show i ∈ ((View.whole main_v2).slice (win0_2.rect t)).set ↔ _
  rw [View.set_slice_whole, Rect.mem_set_unit]
  exact Iff.rfl

/-- Every index of the result is in the block of the point its row names: row r is in block r / 2048. -/
theorem cover2 (i : S4001792x9.Idx) : ∃ t : Fin cfg0.N, (cfg0.win 2).flush t = true ∧ i ∈ ((cfg0.win 2).blk t).view.set := by
  have hi0 : (i 0).val < 4001792 := (i 0).isLt
  have hi1 : (i 1).val < 9 := (i 1).isLt
  have hN : cfg0.N = 1954 := N_0
  have ht : (i 0).val / 2048 < cfg0.N := by rw [hN]; omega
  obtain ⟨-, -, -, -, e20, e21⟩ := idx_facts ⟨(i 0).val / 2048, ht⟩
  refine ⟨⟨(i 0).val / 2048, ht⟩, flush0_2 _, ?_⟩
  rw [mem_blk2]
  intro a
  match a with
  | ⟨0, _⟩ =>
    show win0_2.index ⟨(i 0).val / 2048, ht⟩ (0 : Fin 2) * 2048 ≤ (i 0).val ∧ (i 0).val < win0_2.index ⟨(i 0).val / 2048, ht⟩ (0 : Fin 2) * 2048 + 2048
    rw [e20]; show (i 0).val / 2048 * 2048 ≤ (i 0).val ∧ (i 0).val < (i 0).val / 2048 * 2048 + 2048
    omega
  | ⟨1, _⟩ =>
    show win0_2.index ⟨(i 0).val / 2048, ht⟩ (1 : Fin 2) * 9 ≤ (i 1).val ∧ (i 1).val < win0_2.index ⟨(i 0).val / 2048, ht⟩ (1 : Fin 2) * 9 + 9
    rw [e21]; omega

/-- The region's result array after the run: the row function of the padded operands, row by row. -/
theorem final2 (c : Dev nD) : (dats m 0 c).arrAt 2 cfg0.N = Cert.Cov.G9 (qp m c) (sp m c) :=
  (dats m 0 c).arrAt_eq_of_cover 2 (Cert.Cov.G9 (qp m c) (sp m c)) (fun t _ => flushed2_eq m c t) (cover2)

end Cert.KernelIdeal.Blocks

end
-- ==== Proof.HostEnds.lean ====
/-
  The host operations before the region pad each argument below with 1792 rows of the converted integer zero,
  so that the rows fill 1954 whole blocks. Inside the argument's own rows the padded array is the argument.
-/
import proofs.«119121_j41480794145202_1_alg».proof.Proof.Gen.KernelIdeal.Frame
import Idealize.ShloMosaic.Lib.KernelVsHost
import Idealize.ShloMosaic.Lib.ValueIdx
import Idealize.ShloMosaic.Lib.StableHlo.Run

noncomputable section

namespace Cert.KernelIdeal.HostEnds

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ)

/-- The first operand as the region finds it is the first argument padded below. -/
theorem V_main_v0_eq (c : Dev nD) :
    (V m c main_v0 : S4001792x4.Idx → EReal)
      = pad S4001792x4 ![0, 0] ![1792, 0] ![0, 0] (m ((c : Thread nD τ).loc main_arg0) : S4000000x4.Idx → EReal)
          (sitofp (F := Ideal) .f32 (constantI S_ 32 0#32)) pads_S4000000x4_S4001792x4_017920_000 h_S_ := by
  dsimp only [V, V0]
  simp only [hostOps0, hostOps0_1, hostOps0_2, hostOps0_3, List.flatten_cons, List.flatten_nil, List.append_nil,
    List.cons_append, List.nil_append]
  after_results
  rfl

/-- The second operand as the region finds it is the second argument padded below. -/
theorem V_main_v1_eq (c : Dev nD) :
    (V m c main_v1 : S4001792x3.Idx → EReal)
      = pad S4001792x3 ![0, 0] ![1792, 0] ![0, 0] (m ((c : Thread nD τ).loc main_arg1) : S4000000x3.Idx → EReal)
          (sitofp (F := Ideal) .f32 (constantI S_ 32 0#32)) pads_S4000000x3_S4001792x3_017920_000 h_S_ := by
  dsimp only [V, V0]
  simp only [hostOps0, hostOps0_1, hostOps0_2, hostOps0_3, List.flatten_cons, List.flatten_nil, List.append_nil,
    List.cons_append, List.nil_append]
  after_results
  rfl

/-- A row of the padded first operand that is a row of the argument holds the argument's entries. -/
theorem V_main_v0_apply (c : Dev nD) (r : Fin 4001792) (k : Fin 4) (r' : Fin 4000000) (hr : r.val = r'.val) :
    (V m c main_v0 : S4001792x4.Idx → EReal) (ix2 r k)
      = (m ((c : Thread nD τ).loc main_arg0) : S4000000x4.Idx → EReal) (ix2 r' k) := by
  rw [V_main_v0_eq m c]
  exact pad_apply_of_inside _ _ _ _ _ _ _ (ix2 r k) (ix2 r' k) (fun a => match a with
    | ⟨0, _⟩ => by show r.val = 0 + r'.val * (0 + 1); omega
    | ⟨1, _⟩ => by show k.val = 0 + k.val * (0 + 1); omega)

/-- A row of the padded second operand that is a row of the argument holds the argument's entries. -/
theorem V_main_v1_apply (c : Dev nD) (r : Fin 4001792) (k : Fin 3) (r' : Fin 4000000) (hr : r.val = r'.val) :
    (V m c main_v1 : S4001792x3.Idx → EReal) (ix2 r k)
      = (m ((c : Thread nD τ).loc main_arg1) : S4000000x3.Idx → EReal) (ix2 r' k) := by
  rw [V_main_v1_eq m c]
  exact pad_apply_of_inside _ _ _ _ _ _ _ (ix2 r k) (ix2 r' k) (fun a => match a with
    | ⟨0, _⟩ => by show r.val = 0 + r'.val * (0 + 1); omega
    | ⟨1, _⟩ => by show k.val = 0 + k.val * (0 + 1); omega)

end Cert.KernelIdeal.HostEnds

end
-- ==== Proof.KernelRun.lean ====
/-
  The kernel program's run, read. After the region the host lines cut the [4001792, 9] result back to the
  arguments' 4000000 rows and regroup each row of nine as a 3 by 3 matrix: entry (n, i, k) of the program's
  result is column 3·i + k of row n of the region's array. That row is below the padding, so the padded
  operands there are the arguments' own rows, and the entry is the kernel's spelling of the row function.
-/
import proofs.«119121_j41480794145202_1_alg».proof.Proof.Blocks
import proofs.«119121_j41480794145202_1_alg».proof.Proof.HostEnds
import Idealize.ShloMosaic.Lib.Pipeline.Value
import Idealize.ShloMosaic.Lib.StableHlo.Run

noncomputable section

namespace Cert.KernelIdeal.KernelRun

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- A row of the region's array that is a row of the arguments: the row function of the arguments' rows. -/
theorem G9_apply (c : Dev nD) (n : Fin 4000000) (e : Fin 9) (r : Fin 4001792) (hr : r.val = n.val) :
    Cert.Cov.G9 (Blocks.qp m c) (Blocks.sp m c) (ix2 r e)
      = Cert.Cov.cov9 (Cert.Cov.unitK (Cert.Cov.row (m ((c : Thread nD τ).loc main_arg0) : S4000000x4.Idx → EReal) n))
          (Cert.Cov.row (m ((c : Thread nD τ).loc main_arg1) : S4000000x3.Idx → EReal) n) e := by
  have h0 : Cert.Cov.row (Blocks.qp m c) r = Cert.Cov.row (m ((c : Thread nD τ).loc main_arg0) : S4000000x4.Idx → EReal) n :=
    funext fun k => HostEnds.V_main_v0_apply m c r k n hr
  have h1 : Cert.Cov.row (Blocks.sp m c) r = Cert.Cov.row (m ((c : Thread nD τ).loc main_arg1) : S4000000x3.Idx → EReal) n :=
    funext fun k => HostEnds.V_main_v1_apply m c r k n hr
  show Cert.Cov.cov9 (Cert.Cov.unitK (Cert.Cov.row (Blocks.qp m c) r)) (Cert.Cov.row (Blocks.sp m c) r) e = _
  rw [h0, h1]

/-- The program's result after the host lines that follow the region: the kernel's whole-array function of the arguments. -/
theorem result_eq (c : Dev nD) :
    (Pipeline.afterTail₀ cfgs (dats m) 0 (V0 m) [hostOps1] c main_v4 : S4000000x3x3.Idx → EReal)
      = Cert.Cov.GK (m ((c : Thread nD τ).loc main_arg0)) (m ((c : Thread nD τ).loc main_arg1)) := by
  have hw : Pipeline.withArrays (cfgs 0).spec c (V0 m c) (fun w => (dats m 0 c).arrAt w (cfgs 0).N) (Proc.devRef .tc main_v2)
      = Cert.Cov.G9 (Blocks.qp m c) (Blocks.sp m c) :=
    (Pipeline.withArrays_arr spec0 launch0.win.arr_inj c _ _ 2).trans (Blocks.final2 m c)
  unfold Pipeline.afterTail₀
  show StableHlo.after hostOps1 _ (Proc.devRef .tc main_v4) = _
  after_results
  rw [hw]
  funext i
  obtain ⟨n, a, b, rfl⟩ : ∃ (n : Fin 4000000) (a b : Fin 3), i = ix3 n a b := ⟨i 0, i 1, i 2, eq_ix3 i⟩
  show shapeCast S4000000x3x3 (extractStridedSlice S4000000x9 ![0, 0] (Cert.Cov.G9 (Blocks.qp m c) (Blocks.sp m c))
      slices_S4001792x9_S4000000x9_0_0) shapeCasts_S4000000x9_S4000000x3x3 (ix3 n a b)
    = Cert.Cov.gK (m ((c : Thread nD τ).loc main_arg0)) (m ((c : Thread nD τ).loc main_arg1)) n a b
  have hn : n.val < 4000000 := n.isLt
  have ha : a.val < 3 := a.isLt
  have hb : b.val < 3 := b.isLt
  rw [shapeCast_apply _ shapeCasts_S4000000x9_S4000000x3x3 (ix3 n a b) (ix2 n (Cert.Cov.flat9 a b)) (by
      rw [Shape.rowMajor_val_two, Shape.rowMajor_val_three]
      show n.val * 9 + (3 * a.val + b.val) = (n.val * 3 + a.val) * 3 + b.val
      omega),
    extractStridedSlice_apply ![0, 0] _ slices_S4001792x9_S4000000x9_0_0 (ix2 n (Cert.Cov.flat9 a b))
      (ix2 (⟨n.val, by omega⟩ : Fin 4001792) (Cert.Cov.flat9 a b)) (fun d => match d with
        | ⟨0, _⟩ => by show n.val = 0 + n.val; omega
        | ⟨1, _⟩ => by show (Cert.Cov.flat9 a b).val = 0 + (Cert.Cov.flat9 a b).val; omega)]
  exact G9_apply m c n (Cert.Cov.flat9 a b) ⟨n.val, by omega⟩ rfl

/-- Every weakly fair execution of the kernel program ends with its result at the kernel's whole-array function of
    the two arguments, and the arguments unchanged. -/
theorem run : θ_run defs (onTc (τ := τ) (main (F := Ideal))) ⟨m, fun _ => 0, ρ⟩ (fun r => ∀ c : Dev nD,
      r.2.mem ((c.tc : Thread nD τ).loc main_v4) = Cert.Cov.GK (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v4 (Pipeline.mem_restRefs_of main_v4 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.KernelRun

end
-- ==== Proof.RefValue.lean ====
/-
  The reference's result array, read index by index, is the reference spelling of the row function.

  Each stage of the reference is read at a row: the norm stage is the root of the row's squared length, the four
  column stages are the entries of the unit quadruple, the nine entry stages are the rotation's entries, the nine
  joined columns reshaped are the rotation at (row, i, j), the scale stage is |scale| + ε, their product is the
  scaled rotation, and the last stage contracts two rows of it over the column index.
-/
import proofs.«119121_j41480794145202_1_alg».proof.Proof.Gen.ReferenceIdeal.Read
import proofs.«119121_j41480794145202_1_alg».proof.Proof.CovSpec
import Idealize.ShloMosaic.Lib.Pipeline.Value
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Read

/-- The norm stage at row `n`, any column: the root of the squared length of the row. -/
theorem v1_at (x0 : (⟨S4000000x4, .f32⟩ : BufTy).Contents (Elt Ideal)) (n : Fin 4000000) (k : Fin 4) :
    val_main_v1 (F := Ideal) x0 (ix2 n k) = Ideal.sqrt (Cert.Cov.sq (Cert.Cov.row x0 n)) := by
  rw [val_main_v1_apply, val_main_v0_apply, val_main_call0_v2_apply, val_main_call0_v1_apply,
    val_main_call0_cst_apply, Ideal.hostUnary_sqrt_def, Ideal.ofBits_def, Ideal.ofBits_zero_f32, zero_add]
  refine congrArg Ideal.sqrt (Finset.sum_congr rfl fun c _ => ?_)
  have e : idx_main_call0_v1 (idx_main_call0_v2 (idx_main_v1 (ix2 n k))) c = ix2 n c :=
    funext fun a => by match a with | ⟨0, _⟩ => rfl | ⟨1, _⟩ => rfl
  rw [e]
  rfl

/-- The quotient stage at row `n`, column `k`: entry `k` of the reference's unit quadruple. -/
theorem v2_at (x0 : (⟨S4000000x4, .f32⟩ : BufTy).Contents (Elt Ideal)) (n : Fin 4000000) (k : Fin 4) :
    val_main_v2 (F := Ideal) x0 (ix2 n k) = Cert.Cov.unitR (Cert.Cov.row x0 n) k := by
  rw [val_main_v2_apply, v1_at, Ideal.hostDivf_def]
  rfl

/-- Column 0 of the quotient, as a rank-1 array, at `n`. -/
theorem v4_at (x0 : (⟨S4000000x4, .f32⟩ : BufTy).Contents (Elt Ideal)) (n : Fin 4000000) :
    val_main_v4 (F := Ideal) x0 (ix1 n) = Cert.Cov.unitR (Cert.Cov.row x0 n) 0 := by
  rw [val_main_v4_apply, val_main_v3_apply]
  have e : idx_main_v3 (idx_main_v4 (ix1 n)) = ix2 n (0 : Fin 4) :=
    funext fun a => by
      match a with
      | ⟨0, _⟩ => exact Fin.ext (Nat.div_one _)
      | ⟨1, _⟩ => rfl
  rw [e, v2_at]

/-- Column 1 of the quotient at `n`. -/
theorem v6_at (x0 : (⟨S4000000x4, .f32⟩ : BufTy).Contents (Elt Ideal)) (n : Fin 4000000) :
    val_main_v6 (F := Ideal) x0 (ix1 n) = Cert.Cov.unitR (Cert.Cov.row x0 n) 1 := by
  rw [val_main_v6_apply, val_main_v5_apply]
  have e : idx_main_v5 (idx_main_v6 (ix1 n)) = ix2 n (1 : Fin 4) :=
    funext fun a => by
      match a with
      | ⟨0, _⟩ => exact Fin.ext (Nat.div_one _)
      | ⟨1, _⟩ => rfl
  rw [e, v2_at]

/-- Column 2 of the quotient at `n`. -/
theorem v8_at (x0 : (⟨S4000000x4, .f32⟩ : BufTy).Contents (Elt Ideal)) (n : Fin 4000000) :
    val_main_v8 (F := Ideal) x0 (ix1 n) = Cert.Cov.unitR (Cert.Cov.row x0 n) 2 := by
  rw [val_main_v8_apply, val_main_v7_apply]
  have e : idx_main_v7 (idx_main_v8 (ix1 n)) = ix2 n (2 : Fin 4) :=
    funext fun a => by
      match a with
      | ⟨0, _⟩ => exact Fin.ext (Nat.div_one _)
      | ⟨1, _⟩ => rfl
  rw [e, v2_at]

/-- Column 3 of the quotient at `n`. -/
theorem v10_at (x0 : (⟨S4000000x4, .f32⟩ : BufTy).Contents (Elt Ideal)) (n : Fin 4000000) :
    val_main_v10 (F := Ideal) x0 (ix1 n) = Cert.Cov.unitR (Cert.Cov.row x0 n) 3 := by
  rw [val_main_v10_apply, val_main_v9_apply]
  have e : idx_main_v9 (idx_main_v10 (ix1 n)) = ix2 n (3 : Fin 4) :=
    funext fun a => by
      match a with
      | ⟨0, _⟩ => exact Fin.ext (Nat.div_one _)
      | ⟨1, _⟩ => rfl
  rw [e, v2_at]

/-- Entry (0, 0) of the rotation at row `n`. -/
theorem v17_at (x0 : (⟨S4000000x4, .f32⟩ : BufTy).Contents (Elt Ideal)) (n : Fin 4000000) :
    val_main_v17 (F := Ideal) x0 (ix1 n) = Cert.Cov.rot (Cert.Cov.unitR (Cert.Cov.row x0 n)) 0 0 := by
  rw [val_main_v17_apply, val_main_v16_apply, val_main_cst_0_apply, val_main_v15_apply, val_main_v14_apply, val_main_cst_apply, val_main_v13_apply, val_main_v11_apply, val_main_v12_apply, v8_at, v10_at]
  rfl

/-- Entry (0, 1) of the rotation at row `n`. -/
theorem v22_at (x0 : (⟨S4000000x4, .f32⟩ : BufTy).Contents (Elt Ideal)) (n : Fin 4000000) :
    val_main_v22 (F := Ideal) x0 (ix1 n) = Cert.Cov.rot (Cert.Cov.unitR (Cert.Cov.row x0 n)) 0 1 := by
  rw [val_main_v22_apply, val_main_v21_apply, val_main_cst_1_apply, val_main_v20_apply, val_main_v18_apply, val_main_v19_apply, v6_at, v8_at, v4_at, v10_at]
  rfl

/-- Entry (0, 2) of the rotation at row `n`. -/
theorem v27_at (x0 : (⟨S4000000x4, .f32⟩ : BufTy).Contents (Elt Ideal)) (n : Fin 4000000) :
    val_main_v27 (F := Ideal) x0 (ix1 n) = Cert.Cov.rot (Cert.Cov.unitR (Cert.Cov.row x0 n)) 0 2 := by
  rw [val_main_v27_apply, val_main_v26_apply, val_main_cst_2_apply, val_main_v25_apply, val_main_v23_apply, val_main_v24_apply, v6_at, v10_at, v4_at, v8_at]
  rfl

/-- Entry (1, 0) of the rotation at row `n`. -/
theorem v32_at (x0 : (⟨S4000000x4, .f32⟩ : BufTy).Contents (Elt Ideal)) (n : Fin 4000000) :
    val_main_v32 (F := Ideal) x0 (ix1 n) = Cert.Cov.rot (Cert.Cov.unitR (Cert.Cov.row x0 n)) 1 0 := by
  rw [val_main_v32_apply, val_main_v31_apply, val_main_cst_3_apply, val_main_v30_apply, val_main_v28_apply, val_main_v29_apply, v6_at, v8_at, v4_at, v10_at]
  rfl

/-- Entry (1, 1) of the rotation at row `n`. -/
theorem v39_at (x0 : (⟨S4000000x4, .f32⟩ : BufTy).Contents (Elt Ideal)) (n : Fin 4000000) :
    val_main_v39 (F := Ideal) x0 (ix1 n) = Cert.Cov.rot (Cert.Cov.unitR (Cert.Cov.row x0 n)) 1 1 := by
  rw [val_main_v39_apply, val_main_v38_apply, val_main_cst_5_apply, val_main_v37_apply, val_main_v36_apply, val_main_cst_4_apply, val_main_v35_apply, val_main_v33_apply, val_main_v34_apply, v6_at, v10_at]
  rfl

/-- Entry (1, 2) of the rotation at row `n`. -/
theorem v44_at (x0 : (⟨S4000000x4, .f32⟩ : BufTy).Contents (Elt Ideal)) (n : Fin 4000000) :
    val_main_v44 (F := Ideal) x0 (ix1 n) = Cert.Cov.rot (Cert.Cov.unitR (Cert.Cov.row x0 n)) 1 2 := by
  rw [val_main_v44_apply, val_main_v43_apply, val_main_cst_6_apply, val_main_v42_apply, val_main_v40_apply, val_main_v41_apply, v8_at, v10_at, v4_at, v6_at]
  rfl

/-- Entry (2, 0) of the rotation at row `n`. -/
theorem v49_at (x0 : (⟨S4000000x4, .f32⟩ : BufTy).Contents (Elt Ideal)) (n : Fin 4000000) :
    val_main_v49 (F := Ideal) x0 (ix1 n) = Cert.Cov.rot (Cert.Cov.unitR (Cert.Cov.row x0 n)) 2 0 := by
  rw [val_main_v49_apply, val_main_v48_apply, val_main_cst_7_apply, val_main_v47_apply, val_main_v45_apply, val_main_v46_apply, v6_at, v10_at, v4_at, v8_at]
  rfl

/-- Entry (2, 1) of the rotation at row `n`. -/
theorem v54_at (x0 : (⟨S4000000x4, .f32⟩ : BufTy).Contents (Elt Ideal)) (n : Fin 4000000) :
    val_main_v54 (F := Ideal) x0 (ix1 n) = Cert.Cov.rot (Cert.Cov.unitR (Cert.Cov.row x0 n)) 2 1 := by
  rw [val_main_v54_apply, val_main_v53_apply, val_main_cst_8_apply, val_main_v52_apply, val_main_v50_apply, val_main_v51_apply, v8_at, v10_at, v4_at, v6_at]
  rfl

/-- Entry (2, 2) of the rotation at row `n`. -/
theorem v61_at (x0 : (⟨S4000000x4, .f32⟩ : BufTy).Contents (Elt Ideal)) (n : Fin 4000000) :
    val_main_v61 (F := Ideal) x0 (ix1 n) = Cert.Cov.rot (Cert.Cov.unitR (Cert.Cov.row x0 n)) 2 2 := by
  rw [val_main_v61_apply, val_main_v60_apply, val_main_cst_10_apply, val_main_v59_apply, val_main_v58_apply, val_main_cst_9_apply, val_main_v57_apply, val_main_v55_apply, val_main_v56_apply, v6_at, v8_at]
  rfl

/-- Joined array 62 at `(n, 0)` is its rank-1 source at `n`. -/
theorem v62_at (x0 : (⟨S4000000x4, .f32⟩ : BufTy).Contents (Elt Ideal)) (n : Fin 4000000) :
    val_main_v62 (F := Ideal) x0 (ix2 n (0 : Fin 1)) = val_main_v17 (F := Ideal) x0 (ix1 n) := by
  rw [val_main_v62_apply]
  exact congrArg _ (funext fun d => by match d with | ⟨0, _⟩ => rfl)

/-- Joined array 63 at `(n, 0)` is its rank-1 source at `n`. -/
theorem v63_at (x0 : (⟨S4000000x4, .f32⟩ : BufTy).Contents (Elt Ideal)) (n : Fin 4000000) :
    val_main_v63 (F := Ideal) x0 (ix2 n (0 : Fin 1)) = val_main_v22 (F := Ideal) x0 (ix1 n) := by
  rw [val_main_v63_apply]
  exact congrArg _ (funext fun d => by match d with | ⟨0, _⟩ => rfl)

/-- Joined array 64 at `(n, 0)` is its rank-1 source at `n`. -/
theorem v64_at (x0 : (⟨S4000000x4, .f32⟩ : BufTy).Contents (Elt Ideal)) (n : Fin 4000000) :
    val_main_v64 (F := Ideal) x0 (ix2 n (0 : Fin 1)) = val_main_v27 (F := Ideal) x0 (ix1 n) := by
  rw [val_main_v64_apply]
  exact congrArg _ (funext fun d => by match d with | ⟨0, _⟩ => rfl)

/-- Joined array 65 at `(n, 0)` is its rank-1 source at `n`. -/
theorem v65_at (x0 : (⟨S4000000x4, .f32⟩ : BufTy).Contents (Elt Ideal)) (n : Fin 4000000) :
    val_main_v65 (F := Ideal) x0 (ix2 n (0 : Fin 1)) = val_main_v32 (F := Ideal) x0 (ix1 n) := by
  rw [val_main_v65_apply]
  exact congrArg _ (funext fun d => by match d with | ⟨0, _⟩ => rfl)

/-- Joined array 66 at `(n, 0)` is its rank-1 source at `n`. -/
theorem v66_at (x0 : (⟨S4000000x4, .f32⟩ : BufTy).Contents (Elt Ideal)) (n : Fin 4000000) :
    val_main_v66 (F := Ideal) x0 (ix2 n (0 : Fin 1)) = val_main_v39 (F := Ideal) x0 (ix1 n) := by
  rw [val_main_v66_apply]
  exact congrArg _ (funext fun d => by match d with | ⟨0, _⟩ => rfl)

/-- Joined array 67 at `(n, 0)` is its rank-1 source at `n`. -/
theorem v67_at (x0 : (⟨S4000000x4, .f32⟩ : BufTy).Contents (Elt Ideal)) (n : Fin 4000000) :
    val_main_v67 (F := Ideal) x0 (ix2 n (0 : Fin 1)) = val_main_v44 (F := Ideal) x0 (ix1 n) := by
  rw [val_main_v67_apply]
  exact congrArg _ (funext fun d => by match d with | ⟨0, _⟩ => rfl)

/-- Joined array 68 at `(n, 0)` is its rank-1 source at `n`. -/
theorem v68_at (x0 : (⟨S4000000x4, .f32⟩ : BufTy).Contents (Elt Ideal)) (n : Fin 4000000) :
    val_main_v68 (F := Ideal) x0 (ix2 n (0 : Fin 1)) = val_main_v49 (F := Ideal) x0 (ix1 n) := by
  rw [val_main_v68_apply]
  exact congrArg _ (funext fun d => by match d with | ⟨0, _⟩ => rfl)

/-- Joined array 69 at `(n, 0)` is its rank-1 source at `n`. -/
theorem v69_at (x0 : (⟨S4000000x4, .f32⟩ : BufTy).Contents (Elt Ideal)) (n : Fin 4000000) :
    val_main_v69 (F := Ideal) x0 (ix2 n (0 : Fin 1)) = val_main_v54 (F := Ideal) x0 (ix1 n) := by
  rw [val_main_v69_apply]
  exact congrArg _ (funext fun d => by match d with | ⟨0, _⟩ => rfl)

/-- Joined array 70 at `(n, 0)` is its rank-1 source at `n`. -/
theorem v70_at (x0 : (⟨S4000000x4, .f32⟩ : BufTy).Contents (Elt Ideal)) (n : Fin 4000000) :
    val_main_v70 (F := Ideal) x0 (ix2 n (0 : Fin 1)) = val_main_v61 (F := Ideal) x0 (ix1 n) := by
  rw [val_main_v70_apply]
  exact congrArg _ (funext fun d => by match d with | ⟨0, _⟩ => rfl)

/-- Column 0 of the nine joined columns at row `n`: joined array number 0 at `(n, 0)`. -/
theorem v71_at0 (x0 : (⟨S4000000x4, .f32⟩ : BufTy).Contents (Elt Ideal)) (n : Fin 4000000) :
    val_main_v71 (F := Ideal) x0 (ix2 n (0 : Fin 9)) = val_main_v62 (F := Ideal) x0 (ix2 n (0 : Fin 1)) := by
  unfold val_main_v71
  apply concatenate_apply_piece (t := S4000000x9) (a := (1 : Fin 2)) (k := 0) (s₁ := S4000000x1) (pre := 0)
    (i := ix2 n (0 : Fin 1)) (hr := rfl)
  case hxk => rfl
  case hpre => rfl
  case hi =>
    intro b hb
    match b with
    | ⟨0, _⟩ => rfl
    | ⟨1, _⟩ => exact absurd rfl hb
  case ha => rfl
  case hk => exact (by decide : 0 < 9)

/-- Column 1 of the nine joined columns at row `n`: joined array number 1 at `(n, 0)`. -/
theorem v71_at1 (x0 : (⟨S4000000x4, .f32⟩ : BufTy).Contents (Elt Ideal)) (n : Fin 4000000) :
    val_main_v71 (F := Ideal) x0 (ix2 n (1 : Fin 9)) = val_main_v63 (F := Ideal) x0 (ix2 n (0 : Fin 1)) := by
  unfold val_main_v71
  apply concatenate_apply_piece (t := S4000000x9) (a := (1 : Fin 2)) (k := 1) (s₁ := S4000000x1) (pre := 1)
    (i := ix2 n (0 : Fin 1)) (hr := rfl)
  case hxk => rfl
  case hpre => rfl
  case hi =>
    intro b hb
    match b with
    | ⟨0, _⟩ => rfl
    | ⟨1, _⟩ => exact absurd rfl hb
  case ha => rfl
  case hk => exact (by decide : 1 < 9)

/-- Column 2 of the nine joined columns at row `n`: joined array number 2 at `(n, 0)`. -/
theorem v71_at2 (x0 : (⟨S4000000x4, .f32⟩ : BufTy).Contents (Elt Ideal)) (n : Fin 4000000) :
    val_main_v71 (F := Ideal) x0 (ix2 n (2 : Fin 9)) = val_main_v64 (F := Ideal) x0 (ix2 n (0 : Fin 1)) := by
  unfold val_main_v71
  apply concatenate_apply_piece (t := S4000000x9) (a := (1 : Fin 2)) (k := 2) (s₁ := S4000000x1) (pre := 2)
    (i := ix2 n (0 : Fin 1)) (hr := rfl)
  case hxk => rfl
  case hpre => rfl
  case hi =>
    intro b hb
    match b with
    | ⟨0, _⟩ => rfl
    | ⟨1, _⟩ => exact absurd rfl hb
  case ha => rfl
  case hk => exact (by decide : 2 < 9)

/-- Column 3 of the nine joined columns at row `n`: joined array number 3 at `(n, 0)`. -/
theorem v71_at3 (x0 : (⟨S4000000x4, .f32⟩ : BufTy).Contents (Elt Ideal)) (n : Fin 4000000) :
    val_main_v71 (F := Ideal) x0 (ix2 n (3 : Fin 9)) = val_main_v65 (F := Ideal) x0 (ix2 n (0 : Fin 1)) := by
  unfold val_main_v71
  apply concatenate_apply_piece (t := S4000000x9) (a := (1 : Fin 2)) (k := 3) (s₁ := S4000000x1) (pre := 3)
    (i := ix2 n (0 : Fin 1)) (hr := rfl)
  case hxk => rfl
  case hpre => rfl
  case hi =>
    intro b hb
    match b with
    | ⟨0, _⟩ => rfl
    | ⟨1, _⟩ => exact absurd rfl hb
  case ha => rfl
  case hk => exact (by decide : 3 < 9)

/-- Column 4 of the nine joined columns at row `n`: joined array number 4 at `(n, 0)`. -/
theorem v71_at4 (x0 : (⟨S4000000x4, .f32⟩ : BufTy).Contents (Elt Ideal)) (n : Fin 4000000) :
    val_main_v71 (F := Ideal) x0 (ix2 n (4 : Fin 9)) = val_main_v66 (F := Ideal) x0 (ix2 n (0 : Fin 1)) := by
  unfold val_main_v71
  apply concatenate_apply_piece (t := S4000000x9) (a := (1 : Fin 2)) (k := 4) (s₁ := S4000000x1) (pre := 4)
    (i := ix2 n (0 : Fin 1)) (hr := rfl)
  case hxk => rfl
  case hpre => rfl
  case hi =>
    intro b hb
    match b with
    | ⟨0, _⟩ => rfl
    | ⟨1, _⟩ => exact absurd rfl hb
  case ha => rfl
  case hk => exact (by decide : 4 < 9)

/-- Column 5 of the nine joined columns at row `n`: joined array number 5 at `(n, 0)`. -/
theorem v71_at5 (x0 : (⟨S4000000x4, .f32⟩ : BufTy).Contents (Elt Ideal)) (n : Fin 4000000) :
    val_main_v71 (F := Ideal) x0 (ix2 n (5 : Fin 9)) = val_main_v67 (F := Ideal) x0 (ix2 n (0 : Fin 1)) := by
  unfold val_main_v71
  apply concatenate_apply_piece (t := S4000000x9) (a := (1 : Fin 2)) (k := 5) (s₁ := S4000000x1) (pre := 5)
    (i := ix2 n (0 : Fin 1)) (hr := rfl)
  case hxk => rfl
  case hpre => rfl
  case hi =>
    intro b hb
    match b with
    | ⟨0, _⟩ => rfl
    | ⟨1, _⟩ => exact absurd rfl hb
  case ha => rfl
  case hk => exact (by decide : 5 < 9)

/-- Column 6 of the nine joined columns at row `n`: joined array number 6 at `(n, 0)`. -/
theorem v71_at6 (x0 : (⟨S4000000x4, .f32⟩ : BufTy).Contents (Elt Ideal)) (n : Fin 4000000) :
    val_main_v71 (F := Ideal) x0 (ix2 n (6 : Fin 9)) = val_main_v68 (F := Ideal) x0 (ix2 n (0 : Fin 1)) := by
  unfold val_main_v71
  apply concatenate_apply_piece (t := S4000000x9) (a := (1 : Fin 2)) (k := 6) (s₁ := S4000000x1) (pre := 6)
    (i := ix2 n (0 : Fin 1)) (hr := rfl)
  case hxk => rfl
  case hpre => rfl
  case hi =>
    intro b hb
    match b with
    | ⟨0, _⟩ => rfl
    | ⟨1, _⟩ => exact absurd rfl hb
  case ha => rfl
  case hk => exact (by decide : 6 < 9)

/-- Column 7 of the nine joined columns at row `n`: joined array number 7 at `(n, 0)`. -/
theorem v71_at7 (x0 : (⟨S4000000x4, .f32⟩ : BufTy).Contents (Elt Ideal)) (n : Fin 4000000) :
    val_main_v71 (F := Ideal) x0 (ix2 n (7 : Fin 9)) = val_main_v69 (F := Ideal) x0 (ix2 n (0 : Fin 1)) := by
  unfold val_main_v71
  apply concatenate_apply_piece (t := S4000000x9) (a := (1 : Fin 2)) (k := 7) (s₁ := S4000000x1) (pre := 7)
    (i := ix2 n (0 : Fin 1)) (hr := rfl)
  case hxk => rfl
  case hpre => rfl
  case hi =>
    intro b hb
    match b with
    | ⟨0, _⟩ => rfl
    | ⟨1, _⟩ => exact absurd rfl hb
  case ha => rfl
  case hk => exact (by decide : 7 < 9)

/-- Column 8 of the nine joined columns at row `n`: joined array number 8 at `(n, 0)`. -/
theorem v71_at8 (x0 : (⟨S4000000x4, .f32⟩ : BufTy).Contents (Elt Ideal)) (n : Fin 4000000) :
    val_main_v71 (F := Ideal) x0 (ix2 n (8 : Fin 9)) = val_main_v70 (F := Ideal) x0 (ix2 n (0 : Fin 1)) := by
  unfold val_main_v71
  apply concatenate_apply_piece (t := S4000000x9) (a := (1 : Fin 2)) (k := 8) (s₁ := S4000000x1) (pre := 8)
    (i := ix2 n (0 : Fin 1)) (hr := rfl)
  case hxk => rfl
  case hpre => rfl
  case hi =>
    intro b hb
    match b with
    | ⟨0, _⟩ => rfl
    | ⟨1, _⟩ => exact absurd rfl hb
  case ha => rfl
  case hk => exact (by decide : 8 < 9)

/-- The reshape's source index of `(n, a, j)` is `(n, 3a + j)`. -/
theorem idx72 (n : Fin 4000000) (a j : Fin 3) : idx_main_v72 (ix3 n a j) = ix2 n (Cert.Cov.flat9 a j) :=
  funext fun d => by
    have ha : a.val < 3 := a.isLt
    have hj : j.val < 3 := j.isLt
    match d with
    | ⟨0, _⟩ => exact Fin.ext (by show ((n.val * 3 + a.val) * 3 + j.val) / 9 = n.val; omega)
    | ⟨1, _⟩ => exact Fin.ext (by show ((n.val * 3 + a.val) * 3 + j.val) % 9 = 3 * a.val + j.val; omega)

/-- The 3 by 3 stage at `(n, a, j)` is entry `(a, j)` of the rotation of the reference's unit quadruple. -/
theorem v72_at (x0 : (⟨S4000000x4, .f32⟩ : BufTy).Contents (Elt Ideal)) (n : Fin 4000000) (a j : Fin 3) :
    val_main_v72 (F := Ideal) x0 (ix3 n a j) = Cert.Cov.rot (Cert.Cov.unitR (Cert.Cov.row x0 n)) a j := by
  rw [val_main_v72_apply, idx72]
  match a, j with
  | ⟨0, _⟩, ⟨0, _⟩ => exact (v71_at0 x0 n).trans ((v62_at x0 n).trans (v17_at x0 n))
  | ⟨0, _⟩, ⟨1, _⟩ => exact (v71_at1 x0 n).trans ((v63_at x0 n).trans (v22_at x0 n))
  | ⟨0, _⟩, ⟨2, _⟩ => exact (v71_at2 x0 n).trans ((v64_at x0 n).trans (v27_at x0 n))
  | ⟨1, _⟩, ⟨0, _⟩ => exact (v71_at3 x0 n).trans ((v65_at x0 n).trans (v32_at x0 n))
  | ⟨1, _⟩, ⟨1, _⟩ => exact (v71_at4 x0 n).trans ((v66_at x0 n).trans (v39_at x0 n))
  | ⟨1, _⟩, ⟨2, _⟩ => exact (v71_at5 x0 n).trans ((v67_at x0 n).trans (v44_at x0 n))
  | ⟨2, _⟩, ⟨0, _⟩ => exact (v71_at6 x0 n).trans ((v68_at x0 n).trans (v49_at x0 n))
  | ⟨2, _⟩, ⟨1, _⟩ => exact (v71_at7 x0 n).trans ((v69_at x0 n).trans (v54_at x0 n))
  | ⟨2, _⟩, ⟨2, _⟩ => exact (v71_at8 x0 n).trans ((v70_at x0 n).trans (v61_at x0 n))

/-- The scale stage at `(n, j)`: the absolute value plus the small word. -/
theorem v75_at (x1 : (⟨S4000000x3, .f32⟩ : BufTy).Contents (Elt Ideal)) (n : Fin 4000000) (j : Fin 3) :
    val_main_v75 (F := Ideal) x1 (ix2 n j) = Cert.Cov.scl (Cert.Cov.row x1 n) j := by
  rw [val_main_v75_apply, val_main_v73_apply, val_main_v74_apply, val_main_cst_11_apply]
  rfl

/-- The scale stage spread over the rows of the matrix: at `(n, a, j)` it is scale `j`. -/
theorem v77_at (x1 : (⟨S4000000x3, .f32⟩ : BufTy).Contents (Elt Ideal)) (n : Fin 4000000) (a j : Fin 3) :
    val_main_v77 (F := Ideal) x1 (ix3 n a j) = Cert.Cov.scl (Cert.Cov.row x1 n) j := by
  rw [val_main_v77_apply, val_main_v76_apply]
  have e : idx_main_v76 (idx_main_v77 (ix3 n a j)) = ix2 n j :=
    funext fun d => by match d with | ⟨0, _⟩ => rfl | ⟨1, _⟩ => rfl
  rw [e, v75_at]

/-- The scaled rotation stage at `(n, a, j)`. -/
theorem v78_at (x0 : (⟨S4000000x4, .f32⟩ : BufTy).Contents (Elt Ideal)) (x1 : (⟨S4000000x3, .f32⟩ : BufTy).Contents (Elt Ideal)) (n : Fin 4000000) (a j : Fin 3) :
    val_main_v78 (F := Ideal) x0 x1 (ix3 n a j) = Cert.Cov.rs (Cert.Cov.unitR (Cert.Cov.row x0 n)) (Cert.Cov.row x1 n) a j := by
  rw [val_main_v78_apply, v72_at, v77_at]
  rfl

/-- The reference's last stage is the reference spelling of the whole-array function. -/
theorem val_eq_GR (x0 : (⟨S4000000x4, .f32⟩ : BufTy).Contents (Elt Ideal)) (x1 : (⟨S4000000x3, .f32⟩ : BufTy).Contents (Elt Ideal)) :
    val_main_v79 (F := Ideal) x0 x1 = Cert.Cov.GR x0 x1 := by
  funext i
  obtain ⟨n, a, b, rfl⟩ : ∃ n a b, i = ix3 n a b := ⟨i 0, i 1, i 2, eq_ix3 i⟩
  rw [val_main_v79_apply]
  show _ = ∑ j : Fin 3, Cert.Cov.rs (Cert.Cov.unitR (Cert.Cov.row x0 n)) (Cert.Cov.row x1 n) a j * Cert.Cov.rs (Cert.Cov.unitR (Cert.Cov.row x0 n)) (Cert.Cov.row x1 n) b j
  refine Finset.sum_congr rfl fun k _ => ?_
  have el : lidx_main_v79 (ix3 n a b) k = ix3 n a k :=
    funext fun d => by match d with | ⟨0, _⟩ => rfl | ⟨1, _⟩ => rfl | ⟨2, _⟩ => rfl
  have er : ridx_main_v79 (ix3 n a b) k = ix3 n b k :=
    funext fun d => by match d with | ⟨0, _⟩ => rfl | ⟨1, _⟩ => rfl | ⟨2, _⟩ => rfl
  rw [el, er, v78_at, v78_at]

end Cert.ReferenceIdeal.RefValue

end
-- ==== Proof.CovBridge.lean ====
/-
  The two spellings of the row function agree wherever the squared length of the quadruple is positive.
-/
import proofs.«119121_j41480794145202_1_alg».proof.Proof.CovSpec

noncomputable section

open scoped BigOperators

namespace Cert.Cov

open Idealize.ShloMosaic Idealize.ShloMosaic.ValueIdx

/-- With a positive squared length the product with the reciprocal root is the quotient by the root. -/
theorem unitK_eq_unitR (q : Fin 4 → EReal) (h : 0 < sq q) : unitK q = unitR q := by
  funext k
  unfold unitK unitR
  generalize sq q = t at h
  induction t using EReal.rec with
  | bot => exact absurd h (by simp)
  | top =>
    -- the reciprocal root of ⊤ is 0; the root of ⊤ is ⊤, whose inverse is 0
    rw [Ideal.rsqrt_top, Ideal.sqrt_top, Ideal.div, if_neg EReal.top_ne_zero, EReal.inv_top]
  | coe r =>
    -- a positive real: the reciprocal root is the inverse of the (nonzero) real root
    have hr : 0 < r := by exact_mod_cast h
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div_coe hs, one_div]

/-- The explicit three-term sum is the sum over the column index. -/
theorem dot3_eq_sum (u : Fin 4 → EReal) (s : Fin 3 → EReal) (i k : Fin 3) :
    dot3 u s i k = ∑ j : Fin 3, rs u s i j * rs u s k j := by
  rw [Fin.sum_univ_three, dot3]

/-- The three-term sum is symmetric in its two rows: each product commutes. -/
theorem dot3_comm (u : Fin 4 → EReal) (s : Fin 3 → EReal) (i k : Fin 3) : dot3 u s i k = dot3 u s k i := by
  unfold dot3
  rw [mul_comm (rs u s i 0) (rs u s k 0), mul_comm (rs u s i 1) (rs u s k 1), mul_comm (rs u s i 2) (rs u s k 2)]

/-- The kernel's nine explicit sums, read at entry (i, k), are the contraction over the column index. -/
theorem cov9_flat9 (u : Fin 4 → EReal) (s : Fin 3 → EReal) (i k : Fin 3) :
    cov9 u s (flat9 i k) = ∑ j : Fin 3, rs u s i j * rs u s k j := by
  fin_cases i <;> fin_cases k
  -- the upper triangle and the diagonal are the sums themselves
  · exact dot3_eq_sum u s 0 0
  · exact dot3_eq_sum u s 0 1
  · exact dot3_eq_sum u s 0 2
  -- entry (1, 0) is written as entry (0, 1)
  · exact (dot3_comm u s 0 1).trans (dot3_eq_sum u s 1 0)
  · exact dot3_eq_sum u s 1 1
  · exact dot3_eq_sum u s 1 2
  -- entries (2, 0) and (2, 1) are written as entries (0, 2) and (1, 2)
  · exact (dot3_comm u s 0 2).trans (dot3_eq_sum u s 2 0)
  · exact (dot3_comm u s 1 2).trans (dot3_eq_sum u s 2 1)
  · exact dot3_eq_sum u s 2 2

/-- One entry of one row: the two spellings agree when the row's squared length is positive. -/
theorem gK_eq_gR (q : (⟨2, ![4000000, 4]⟩ : Shape).Idx → EReal) (s : (⟨2, ![4000000, 3]⟩ : Shape).Idx → EReal)
    (n : Fin 4000000) (h : 0 < sq (row q n)) (i k : Fin 3) : gK q s n i k = gR q s n i k := by
  unfold gK gR
  rw [unitK_eq_unitR _ h, cov9_flat9]

/-- The two whole-array functions agree when every row of the first argument has positive squared length. -/
theorem GK_eq_GR (q : (⟨2, ![4000000, 4]⟩ : Shape).Idx → EReal) (s : (⟨2, ![4000000, 3]⟩ : Shape).Idx → EReal)
    (h : ∀ n : Fin 4000000, 0 < sq (row q n)) : GK q s = GR q s := by
  funext j
  exact gK_eq_gR q s (j 0) (h (j 0)) (j 1) (j 2)

end Cert.Cov

end
-- ==== Proof.PreDecode.lean ====
/-
  What the precondition says of the first argument: every row has positive squared length.
-/
import proofs.«119121_j41480794145202_1_alg».proof.Pre_finite_inputs
import proofs.«119121_j41480794145202_1_alg».proof.Proof.CovSpec
import Idealize.ShloMosaic.Lib.ReduceAll
import Idealize.ShloMosaic.Lib.IdealHost
import Idealize.ShloMosaic.Lib.StableHlo.Predicate
import Idealize.ShloMosaic.PureOps.Ideal.Laws
import Idealize.ShloMosaic.Lib.ValueIdx

noncomputable section

open scoped BigOperators

namespace Cert.PreDecode

open Idealize.ShloMosaic Idealize.ShloMosaic.ValueIdx Cert.Pre_finite_inputs

/-- The precondition's last conjunct, decoded: each row's sum of squares is above zero. -/
theorem sq_pos_of_pre [Cert.Pre_finite_inputs.Facts] (q : FVec Ideal S4000000x4 .f32) (s : FVec Ideal S4000000x3 .f32)
    (h : Cert.Pre_finite_inputs.fn (F := Ideal) q s = fun _ => 1#1) (n : Fin 4000000) :
    0 < Cert.Cov.sq (Cert.Cov.row q n) := by
  -- the predicate's one element is 1; it is a conjunction whose right part is the all-rows test
  have h0 := congrFun h ValueIdx.ix0
  dsimp only [Cert.Pre_finite_inputs.fn] at h0
  have h1 := (IntOp.andi_eq_one.1 h0).2
  -- the scalar shape has exactly one index, so an "and" over every row that is 1 is 1 at row n
  haveI : Subsingleton S_.Idx := ⟨fun a b => funext fun d => d.elim0⟩
  have hbit := Host.reduce_andi_all _ _ _ _ _ h1 (ix1 n)
  have hR : S4000000x4.Reduces [1] S4000000 := by decide
  -- the comparison bit at row n says: zero is below the row's sum of squares
  rw [cmpf_apply, Ideal.cmpf_def, Ideal.cmp] at hbit
  have hlt := of_decide_eq_true ((StableHlo.Predicate.ofBool_eq_one_iff _).1 hbit)
  rw [broadcastInDim_scalar_apply, constant_apply, Ideal.ofBits_zero_f32, hostReduceAdd_apply,
    Ideal.hostReduceAdd_single _ hR, constant_apply, Ideal.ofBits_zero_f32, zero_add] at hlt
  -- the index inserted at column k of row n is (n, k)
  have hl : ∀ k : Fin 4, hR.lift (ix1 n) k = ix2 n k := fun k => by
    funext d
    match d with
    | ⟨0, _⟩ => exact Fin.ext rfl
    | ⟨1, _⟩ => exact Fin.ext rfl
  unfold Cert.Cov.sq Cert.Cov.row
  refine lt_of_lt_of_eq hlt (Finset.sum_congr rfl fun k _ => ?_)
  rw [mulf_apply, hl k]

end Cert.PreDecode

end
-- ==== Proof.lean ====
/-
  Quaternion rows to covariance matrices: the kernel against its reference over the extended reals.

  Each row n of the first argument is a quadruple q, each row of the second a triple of scales s. Both programs
  form u = q normalised, the rotation matrix R(u), the scaled rotation RS with RS[i][j] = R(u)[i][j] · (|s j| + ε),
  and return RS · RSᵀ. The kernel normalises by u = q · rsqrt(Σ q²) and writes the nine entries of the symmetric
  product as three-term sums, copying the lower triangle from the upper; the reference normalises by
  u = q / sqrt(Σ q²) and contracts over the column index. The precondition asks, besides finite inputs, that every
  row of the first argument has a positive sum of squares: exactly where the reference's quotient by the norm is
  defined (at a zero row it is 0 / 0). There Σ q² is a positive real or +∞, the reciprocal root is the inverse of
  the root (both 0 against +∞), and the product with it is the quotient; the three-term sums are the contraction
  because addition and multiplication of extended reals are commutative and associative. No other law is used.

  The kernel runs on 1954 blocks of 2048 rows over arguments padded below by 1792 rows; the rows of the result
  that the program keeps lie above the padding, where the padded arrays are the arguments.
-/
import proofs.«119121_j41480794145202_1_alg».proof.Defs
import proofs.«119121_j41480794145202_1_alg».proof.Proof.Gen.Kernel
import proofs.«119121_j41480794145202_1_alg».proof.Proof.Gen.Kernel.Skeleton
import proofs.«119121_j41480794145202_1_alg».proof.Proof.Gen.Kernel.Launch
import proofs.«119121_j41480794145202_1_alg».proof.Proof.Gen.Kernel.Points
import proofs.«119121_j41480794145202_1_alg».proof.Proof.Gen.Kernel.Frame
import proofs.«119121_j41480794145202_1_alg».proof.Proof.Gen.KernelIdeal
import proofs.«119121_j41480794145202_1_alg».proof.Proof.Gen.KernelIdeal.Skeleton
import proofs.«119121_j41480794145202_1_alg».proof.Proof.Gen.KernelIdeal.Launch
import proofs.«119121_j41480794145202_1_alg».proof.Proof.Gen.KernelIdeal.Points
import proofs.«119121_j41480794145202_1_alg».proof.Proof.Gen.KernelIdeal.Frame
import proofs.«119121_j41480794145202_1_alg».proof.Proof.Gen.ReferenceIdeal
import proofs.«119121_j41480794145202_1_alg».proof.Proof.Gen.ReferenceIdeal.Run
import proofs.«119121_j41480794145202_1_alg».proof.Proof.Gen.ReferenceIdeal.Read
import proofs.«119121_j41480794145202_1_alg».proof.Proof.Gen.Pre_finite_inputs
import Idealize.ShloMosaic.Adequacy
import Idealize.ShloMosaic.Init
import proofs.«119121_j41480794145202_1_alg».proof.Proof.KernelRun
import proofs.«119121_j41480794145202_1_alg».proof.Proof.RefValue
import proofs.«119121_j41480794145202_1_alg».proof.Proof.CovBridge
import proofs.«119121_j41480794145202_1_alg».proof.Proof.PreDecode

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, with every quadruple of positive squared length, the two programs end with equal
    results: the kernel's spelling of the row function is the reference's. -/
theorem algebraic : Cert.algebraic_KernelIdeal_ReferenceIdeal := by
  intro m ρ m' ρ' hpre hagree
  refine ⟨fun c => Cert.Cov.GK (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v79_eq, Cert.ReferenceIdeal.RefValue.val_eq_GR, (hagree c).1, (hagree c).2]
  exact (Cert.Cov.GK_eq_GR _ _ (Cert.PreDecode.sq_pos_of_pre _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
